-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S200x288 : Shape := ⟨2, ![200, 288]⟩
abbrev S288 : Shape := ⟨1, ![288]⟩
abbrev S6144x200 : Shape := ⟨2, ![6144, 200]⟩
abbrev S200 : Shape := ⟨1, ![200]⟩
abbrev S40943 : Shape := ⟨1, ![40943]⟩
abbrev S40943x200 : Shape := ⟨2, ![40943, 200]⟩
abbrev S18x200 : Shape := ⟨2, ![18, 200]⟩
abbrev S_ : Shape := ⟨0, ![]⟩

class Facts : Prop where
  bcast_S_S200x288 : S_.BroadcastsInDim S200x288 (![] : Fin 0 → Fin S200x288.rank)
  reducesTo_S200x288_S_d0_1 : S200x288.ReducesTo [0, 1] S_
  h_S_ : 0 < S_.numel
  bcast_S_S288 : S_.BroadcastsInDim S288 (![] : Fin 0 → Fin S288.rank)
  reducesTo_S288_S_d0 : S288.ReducesTo [0] S_
  bcast_S_S6144x200 : S_.BroadcastsInDim S6144x200 (![] : Fin 0 → Fin S6144x200.rank)
  reducesTo_S6144x200_S_d0_1 : S6144x200.ReducesTo [0, 1] S_
  bcast_S_S200 : S_.BroadcastsInDim S200 (![] : Fin 0 → Fin S200.rank)
  reducesTo_S200_S_d0 : S200.ReducesTo [0] S_
  bcast_S_S40943 : S_.BroadcastsInDim S40943 (![] : Fin 0 → Fin S40943.rank)
  reducesTo_S40943_S_d0 : S40943.ReducesTo [0] S_
  bcast_S_S40943x200 : S_.BroadcastsInDim S40943x200 (![] : Fin 0 → Fin S40943x200.rank)
  reducesTo_S40943x200_S_d0_1 : S40943x200.ReducesTo [0, 1] S_
  bcast_S_S18x200 : S_.BroadcastsInDim S18x200 (![] : Fin 0 → Fin S18x200.rank)
  reducesTo_S18x200_S_d0_1 : S18x200.ReducesTo [0, 1] S_

variable [Facts]

def fn_part1 {F : FTy → Type} [FloatOps F] (main_arg6 : FVec F S40943 .f32) (main_arg7 : FVec F S40943x200 .f32) (main_arg8 : FVec F S18x200 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S40943 .f32 := Host.absf main_arg6
  let main_cst_6 : FVec F S_ .f32 := constant S_ .f32 0x7F800000#32
  let main_v20 : FVec F S40943 .f32 := broadcastInDim S40943 ![] bcast_S_S40943 main_cst_6
  let main_v21 : IVec S40943 1 := cmpf .olt main_v19 main_v20
  let main_c_7 : IVec S_ 1 := constantI S_ 1 1#1
  let main_v22 : IVec S_ 1 := (fun x v => Host.reduce IntOp.andi x v reducesTo_S40943_S_d0 h_S_) main_v21 main_c_7
  let main_v23 : IVec S_ 1 := andi main_v18 main_v22
  let main_v24 : FVec F S40943x200 .f32 := Host.absf main_arg7
  let main_cst_8 : FVec F S_ .f32 := constant S_ .f32 0x7F800000#32
  let main_v25 : FVec F S40943x200 .f32 := broadcastInDim S40943x200 ![] bcast_S_S40943x200 main_cst_8
  let main_v26 : IVec S40943x200 1 := cmpf .olt main_v24 main_v25
  let main_c_9 : IVec S_ 1 := constantI S_ 1 1#1
  let main_v27 : IVec S_ 1 := (fun x v => Host.reduce IntOp.andi x v reducesTo_S40943x200_S_d0_1 h_S_) main_v26 main_c_9
  let main_v28 : IVec S_ 1 := andi main_v23 main_v27
  let main_v29 : FVec F S18x200 .f32 := Host.absf main_arg8
  let main_cst_10 : FVec F S_ .f32 := constant S_ .f32 0x7F800000#32
  let main_v30 : FVec F S18x200 .f32 := broadcastInDim S18x200 ![] bcast_S_S18x200 main_cst_10
  let main_v31 : IVec S18x200 1 := cmpf .olt main_v29 main_v30
  let main_c_11 : IVec S_ 1 := constantI S_ 1 1#1
  let main_v32 : IVec S_ 1 := (fun x v => Host.reduce IntOp.andi x v reducesTo_S18x200_S_d0_1 h_S_) main_v31 main_c_11
  let main_v33 : IVec S_ 1 := andi main_v28 main_v32
  main_v33

def fn {F : FTy → Type} [FloatOps F] (main_arg0 : IVec S1024 32) (main_arg1 : IVec S1024 32) (main_arg2 : FVec F S200x288 .f32) (main_arg3 : FVec F S288 .f32) (main_arg4 : FVec F S6144x200 .f32) (main_arg5 : FVec F S200 .f32) (main_arg6 : FVec F S40943 .f32) (main_arg7 : FVec F S40943x200 .f32) (main_arg8 : FVec F S18x200 .f32) : IVec S_ 1 :=
  let main_v0 : FVec F S200x288 .f32 := Host.absf main_arg2
  let main_cst : FVec F S_ .f32 := constant S_ .f32 0x7F800000#32
  let main_v1 : FVec F S200x288 .f32 := broadcastInDim S200x288 ![] bcast_S_S200x288 main_cst
  let main_v2 : IVec S200x288 1 := cmpf .olt main_v0 main_v1
  let main_c : IVec S_ 1 := constantI S_ 1 1#1
  let main_v3 : IVec S_ 1 := (fun x v => Host.reduce IntOp.andi x v reducesTo_S200x288_S_d0_1 h_S_) main_v2 main_c
  let main_v4 : FVec F S288 .f32 := Host.absf main_arg3
  let main_cst_0 : FVec F S_ .f32 := constant S_ .f32 0x7F800000#32
  let main_v5 : FVec F S288 .f32 := broadcastInDim S288 ![] bcast_S_S288 main_cst_0
  let main_v6 : IVec S288 1 := cmpf .olt main_v4 main_v5
  let main_c_1 : IVec S_ 1 := constantI S_ 1 1#1
  let main_v7 : IVec S_ 1 := (fun x v => Host.reduce IntOp.andi x v reducesTo_S288_S_d0 h_S_) main_v6 main_c_1
  let main_v8 : IVec S_ 1 := andi main_v3 main_v7
  let main_v9 : FVec F S6144x200 .f32 := Host.absf main_arg4
  let main_cst_2 : FVec F S_ .f32 := constant S_ .f32 0x7F800000#32
  let main_v10 : FVec F S6144x200 .f32 := broadcastInDim S6144x200 ![] bcast_S_S6144x200 main_cst_2
  let main_v11 : IVec S6144x200 1 := cmpf .olt main_v9 main_v10
  let main_c_3 : IVec S_ 1 := constantI S_ 1 1#1
  let main_v12 : IVec S_ 1 := (fun x v => Host.reduce IntOp.andi x v reducesTo_S6144x200_S_d0_1 h_S_) main_v11 main_c_3
  let main_v13 : IVec S_ 1 := andi main_v8 main_v12
  let main_v14 : FVec F S200 .f32 := Host.absf main_arg5
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg6 main_arg7 main_arg8 main_v13 main_v16
-- ==== Kernel.lean ====
abbrev S1024 : Shape := ⟨1, ![1024]⟩
abbrev S200x288 : Shape := ⟨2, ![200, 288]⟩
abbrev S288 : Shape := ⟨1, ![288]⟩
abbrev S6144x200 : Shape := ⟨2, ![6144, 200]⟩
abbrev S200 : Shape := ⟨1, ![200]⟩
abbrev S40943 : Shape := ⟨1, ![40943]⟩
abbrev S40943x200 : Shape := ⟨2, ![40943, 200]⟩
abbrev S18x200 : Shape := ⟨2, ![18, 200]⟩
abbrev S_ : Shape := ⟨0, ![]⟩
abbrev S1024x1 : Shape := ⟨2, ![1024, 1]⟩
abbrev S1024x200 : Shape := ⟨2, ![1024, 200]⟩
abbrev S1x288 : Shape := ⟨2, ![1, 288]⟩
abbrev S1x200 : Shape := ⟨2, ![1, 200]⟩
abbrev S256x200 : Shape := ⟨2, ![256, 200]⟩
abbrev S256x288 : Shape := ⟨2, ![256, 288]⟩
abbrev S256x32x192 : Shape := ⟨3, ![256, 32, 192]⟩
abbrev S256x192 : Shape := ⟨2, ![256, 192]⟩
abbrev S256x32 : Shape := ⟨2, ![256, 32]⟩
abbrev S256x32x1 : Shape := ⟨3, ![256, 32, 1]⟩
abbrev S256x1x192 : Shape := ⟨3, ![256, 1, 192]⟩
abbrev S256x6144 : Shape := ⟨2, ![256, 6144]⟩
abbrev S40960x200 : Shape := ⟨2, ![40960, 200]⟩
abbrev S40960 : Shape := ⟨1, ![40960]⟩
abbrev S1x40960 : Shape := ⟨2, ![1, 40960]⟩
abbrev S1024x40960 : Shape := ⟨2, ![1024, 40960]⟩
abbrev S2048x200 : Shape := ⟨2, ![2048, 200]⟩
abbrev S1x2048 : Shape := ⟨2, ![1, 2048]⟩
abbrev S1024x2048 : Shape := ⟨2, ![1024, 2048]⟩
abbrev S1024x40943 : Shape := ⟨2, ![1024, 40943]⟩

abbrev nBuf : Space → Nat
  | .hbm => 39
  | .vmem => 17
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S200x288, .f32⟩
  | .hbm, ⟨3, _⟩ => ⟨S288, .f32⟩
  | .hbm, ⟨4, _⟩ => ⟨S6144x200, .f32⟩
  | .hbm, ⟨5, _⟩ => ⟨S200, .f32⟩
  | .hbm, ⟨6, _⟩ => ⟨S40943, .f32⟩
  | .hbm, ⟨7, _⟩ => ⟨S40943x200, .f32⟩
  | .hbm, ⟨8, _⟩ => ⟨S18x200, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x200, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x200, .f32⟩
  | .hbm, ⟨27, _⟩ => ⟨S1x288, .f32⟩
  | .hbm, ⟨28, _⟩ => ⟨S1x200, .f32⟩
  | .hbm, ⟨29, _⟩ => ⟨S1024x200, .bf16⟩
  | .hbm, ⟨30, _⟩ => ⟨S_, .i32⟩
  | .hbm, ⟨31, _⟩ => ⟨S_, .f32⟩
  | .hbm, ⟨32, _⟩ => ⟨S40960x200, .f32⟩
  | .hbm, ⟨33, _⟩ => ⟨S_, .i32⟩
  | .hbm, ⟨34, _⟩ => ⟨S_, .f32⟩
  | .hbm, ⟨35, _⟩ => ⟨S40960, .f32⟩
  | .hbm, ⟨36, _⟩ => ⟨S1x40960, .f32⟩
  | .hbm, ⟨37, _⟩ => ⟨S1024x40960, .f32⟩
  | .hbm, ⟨38, _⟩ => ⟨S1024x40943, .f32⟩
  | .local _ .vmem, ⟨0, _⟩ => ⟨S256x200, .f32⟩
  | .local _ .vmem, ⟨1, _⟩ => ⟨S256x200, .f32⟩
  | .local _ .vmem, ⟨2, _⟩ => ⟨S256x200, .f32⟩
  | .local _ .vmem, ⟨3, _⟩ => ⟨S256x200, .f32⟩
  | .local _ .vmem, ⟨4, _⟩ => ⟨S200x288, .f32⟩
  | .local _ .vmem, ⟨5, _⟩ => ⟨S1x288, .f32⟩
  | .local _ .vmem, ⟨6, _⟩ => ⟨S6144x200, .f32⟩
  | .local _ .vmem, ⟨7, _⟩ => ⟨S1x200, .f32⟩
  | .local _ .vmem, ⟨8, _⟩ => ⟨S256x200, .bf16⟩
  | .local _ .vmem, ⟨9, _⟩ => ⟨S256x200, .bf16⟩
  | .local _ .vmem, ⟨10, _⟩ => ⟨S1024x200, .bf16⟩
  | .local _ .vmem, ⟨11, _⟩ => ⟨S2048x200, .f32⟩
  | .local _ .vmem, ⟨12, _⟩ => ⟨S2048x200, .f32⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_call0_v0 : Ref sig .tc := ⟨.hbm, 31, rfl⟩
abbrev main_v17 : Ref sig .tc := ⟨.hbm, 32, rfl⟩
abbrev main_c_4 : Ref sig .tc := ⟨.hbm, 33, rfl⟩
abbrev main_call1_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x200 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x200 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  shapeCasts_S288_S1x288 : S288.ShapeCasts S1x288
  shapeCasts_S200_S1x200 : S200.ShapeCasts S1x200
  inb_S256x200_S256x200_0_0 : ∀ a, (![0, 0] : Fin 2 → Nat) a + S256x200.size a ≤ S256x200.size a
  h_S256x200 : 0 < S256x200.numel
  shapeCasts_S256x200_S256x200 : S256x200.ShapeCasts S256x200
  bitsLt_bf16_f32 : FTy.bits .bf16 < FTy.bits .f32
  inb_S200x288_S200x288_0_0 : ∀ a, (![0, 0] : Fin 2 → Nat) a + S200x288.size a ≤ S200x288.size a
  h_S200x288 : 0 < S200x288.numel
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S256x288 : S1x288.Broadcasts S256x288
  slices_S256x200_o0_0_S256x192 : S256x200.Slices ![0, 0] S256x192
  slices_S256x288_o0_0_S256x32 : S256x288.Slices ![0, 0] S256x32
  shapeCasts_S256x32_S256x32x1 : S256x32.ShapeCasts S256x32x1
  shapeCasts_S256x192_S256x1x192 : S256x192.ShapeCasts S256x1x192
  broadcasts_S256x32x1_S256x32x192 : S256x32x1.Broadcasts S256x32x192
  broadcasts_S256x1x192_S256x32x192 : S256x1x192.Broadcasts S256x32x192
  slices_S256x200_o0_1_S256x192 : S256x200.Slices ![0, 1] S256x192
  slices_S256x288_o0_32_S256x32 : S256x288.Slices ![0, 32] S256x32
  slices_S256x200_o0_2_S256x192 : S256x200.Slices ![0, 2] S256x192
  slices_S256x288_o0_64_S256x32 : S256x288.Slices ![0, 64] S256x32
  slices_S256x200_o0_3_S256x192 : S256x200.Slices ![0, 3] S256x192
  slices_S256x288_o0_96_S256x32 : S256x288.Slices ![0, 96] S256x32
  slices_S256x200_o0_4_S256x192 : S256x200.Slices ![0, 4] S256x192
  slices_S256x288_o0_128_S256x32 : S256x288.Slices ![0, 128] S256x32
  slices_S256x200_o0_5_S256x192 : S256x200.Slices ![0, 5] S256x192
  slices_S256x288_o0_160_S256x32 : S256x288.Slices ![0, 160] S256x32
  slices_S256x200_o0_6_S256x192 : S256x200.Slices ![0, 6] S256x192
  slices_S256x288_o0_192_S256x32 : S256x288.Slices ![0, 192] S256x32
  slices_S256x200_o0_7_S256x192 : S256x200.Slices ![0, 7] S256x192
  slices_S256x288_o0_224_S256x32 : S256x288.Slices ![0, 224] S256x32
  slices_S256x200_o0_8_S256x192 : S256x200.Slices ![0, 8] S256x192
  slices_S256x288_o0_256_S256x32 : S256x288.Slices ![0, 256] S256x32
  shapeCasts_S256x32x192_S256x6144 : S256x32x192.ShapeCasts S256x6144
  inb_S6144x200_S6144x200_0_0 : ∀ a, (![0, 0] : Fin 2 → Nat) a + S6144x200.size a ≤ S6144x200.size a
  h_S6144x200 : 0 < S6144x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S256x200 : S1x200.Broadcasts S256x200
  packedbf16_S256x200_S256x200_0_0 : (Rect.unit (s := S256x200) ![0, 0] S256x200.size inb_S256x200_S256x200_0_0).PackedRows (EltTy.packing .bf16)
  pads_S40943x200_S40960x200_0170_000 : S40943x200.Pads (![0, 0] : Fin 2 → Nat) ![17, 0] ![0, 0] S40960x200
  h_S_ : 0 < S_.numel
  pads_S40943_S40960_0170 : S40943.Pads (![0] : Fin 1 → Nat) ![17] ![0] S40960
  shapeCasts_S40960_S1x40960 : S40960.ShapeCasts S1x40960
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  slices_S1024x40960_S1024x40943_0_0 : S1024x40960.Slices ![0, 0] S1024x40943
  gather_S40943x200_S1024x1_S1024x200_1_0_n_n_0_1_1200_wf : GatherDims.WF S40943x200 S1024x1 S1024x200 [1] [0] [] [0] [] 1 ![1, 200]
  gather_S18x200_S1024x1_S1024x200_1_0_n_n_0_1_1200_wf : GatherDims.WF S18x200 S1024x1 S1024x200 [1] [0] [] [0] [] 1 ![1, 200]
  dot_S256x200_S200x288_S256x288_1_0_0_1_n_n_wf : DotDims.WF S256x200 S200x288 S256x288 [1] [0] [0] [1] [] []
  dot_S256x6144_S6144x200_S256x200_1_0_0_1_n_n_wf : DotDims.WF S256x6144 S6144x200 S256x200 [1] [0] [0] [1] [] []
  dot_S1024x200_S2048x200_S1024x2048_1_1_0_0_n_n_wf : DotDims.WF S1024x200 S2048x200 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x200.size a ≤ S1024x200.size a
  hwx0_0 : ∀ i : grid0.Coords, EltTy.bits .f32 = 32 ∨ (Rect.block (s := S1024x200) S256x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x200.size a ≤ S1024x200.size a
  hwx0_1 : ∀ i : grid0.Coords, EltTy.bits .f32 = 32 ∨ (Rect.block (s := S1024x200) S256x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x288.size a ≤ S200x288.size a
  hwx0_2 : ∀ i : grid0.Coords, EltTy.bits .f32 = 32 ∨ (Rect.block (s := S200x288) S200x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x288.size a ≤ S1x288.size a
  hwx0_3 : ∀ i : grid0.Coords, EltTy.bits .f32 = 32 ∨ (Rect.block (s := S1x288) S1x288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x200.size a ≤ S6144x200.size a
  hwx0_4 : ∀ i : grid0.Coords, EltTy.bits .f32 = 32 ∨ (Rect.block (s := S6144x200) S6144x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x200.size a ≤ S1024x200.size a
  hwx0_6 : ∀ i : grid0.Coords, EltTy.bits .bf16 = 32 ∨ (Rect.block (s := S1024x200) S256x200.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x200.size a ≤ S1024x200.size a
  hwx1_0 : ∀ i : grid1.Coords, EltTy.bits .bf16 = 32 ∨ (Rect.block (s := S1024x200) S1024x200.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x200.size a ≤ S40960x200.size a
  hwx1_1 : ∀ i : grid1.Coords, EltTy.bits .f32 = 32 ∨ (Rect.block (s := S40960x200) S2048x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x40960.size a
  hwx1_2 : ∀ i : grid1.Coords, EltTy.bits .f32 = 32 ∨ (Rect.block (s := S1x40960) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x40960.size a
  hwx1_3 : ∀ i : grid1.Coords, EltTy.bits .f32 = 32 ∨ (Rect.block (s := S1024x40960) S1024x2048.size (cc1_transform_3 i) (hinb1_3 i)).WholeWords (EltTy.packing .f32)

variable [Facts₀]

def gather_S40943x200_S1024x1_S1024x200_1_0_n_n_0_1_1200 : GatherDims S40943x200 S1024x1 S1024x200 where
  offsetDims := [1]
  collapsedSliceDims := [0]
  operandBatchingDims := []
  startIndicesBatchingDims := []
  startIndexMap := [0]
  indexVectorDim := 1
  sliceSizes := ![1, 200]
  wf := gather_S40943x200_S1024x1_S1024x200_1_0_n_n_0_1_1200_wf
def gather_S18x200_S1024x1_S1024x200_1_0_n_n_0_1_1200 : GatherDims S18x200 S1024x1 S1024x200 where
  offsetDims := [1]
  collapsedSliceDims := [0]
  operandBatchingDims := []
  startIndicesBatchingDims := []
  startIndexMap := [0]
  indexVectorDim := 1
  sliceSizes := ![1, 200]
  wf := gather_S18x200_S1024x1_S1024x200_1_0_n_n_0_1_1200_wf
def dot_S256x200_S200x288_S256x288_1_0_0_1_n_n : DotDims S256x200 S200x288 S256x288 where
  lhsContracting := [1]
  rhsContracting := [0]
  lhsNonContracting := [0]
  rhsNonContracting := [1]
  lhsBatch := []
  rhsBatch := []
  wf := dot_S256x200_S200x288_S256x288_1_0_0_1_n_n_wf
def dot_S256x6144_S6144x200_S256x200_1_0_0_1_n_n : DotDims S256x6144 S6144x200 S256x200 where
  lhsContracting := [1]
  rhsContracting := [0]
  lhsNonContracting := [0]
  rhsNonContracting := [1]
  lhsBatch := []
  rhsBatch := []
  wf := dot_S256x6144_S6144x200_S256x200_1_0_0_1_n_n_wf
def dot_S1024x200_S2048x200_S1024x2048_1_1_0_0_n_n : DotDims S1024x200 S2048x200 S1024x2048 where
  lhsContracting := [1]
  rhsContracting := [1]
  lhsNonContracting := [0]
  rhsNonContracting := [0]
  lhsBatch := []
  rhsBatch := []
  wf := dot_S1024x200_S2048x200_S1024x2048_1_1_0_0_n_n_wf

abbrev win0_0 : Pipeline.Window sig grid0 :=
  Pipeline.Window.ofSpec (Memref.whole main_v6) S256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6144x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x200.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S1024x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2048x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024 : Shape := ⟨1, ![1024]⟩
abbrev S200x288 : Shape := ⟨2, ![200, 288]⟩
abbrev S288 : Shape := ⟨1, ![288]⟩
abbrev S6144x200 : Shape := ⟨2, ![6144, 200]⟩
abbrev S200 : Shape := ⟨1, ![200]⟩
abbrev S40943 : Shape := ⟨1, ![40943]⟩
abbrev S40943x200 : Shape := ⟨2, ![40943, 200]⟩
abbrev S18x200 : Shape := ⟨2, ![18, 200]⟩
abbrev S_ : Shape := ⟨0, ![]⟩
abbrev S1024x1 : Shape := ⟨2, ![1024, 1]⟩
abbrev S1024x200 : Shape := ⟨2, ![1024, 200]⟩
abbrev S1024x288 : Shape := ⟨2, ![1024, 288]⟩
abbrev S1x288 : Shape := ⟨2, ![1, 288]⟩
abbrev S1024x9x32 : Shape := ⟨3, ![1024, 9, 32]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S1024x6144 : Shape := ⟨2, ![1024, 6144]⟩
abbrev S1x200 : Shape := ⟨2, ![1, 200]⟩
abbrev S200x40943 : Shape := ⟨2, ![200, 40943]⟩
abbrev S1024x40943 : Shape := ⟨2, ![1024, 40943]⟩
abbrev S1x40943 : Shape := ⟨2, ![1, 40943]⟩

abbrev nBuf : Space → Nat
  | .hbm => 62
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S200x288, .f32⟩
  | .hbm, ⟨3, _⟩ => ⟨S288, .f32⟩
  | .hbm, ⟨4, _⟩ => ⟨S6144x200, .f32⟩
  | .hbm, ⟨5, _⟩ => ⟨S200, .f32⟩
  | .hbm, ⟨6, _⟩ => ⟨S40943, .f32⟩
  | .hbm, ⟨7, _⟩ => ⟨S40943x200, .f32⟩
  | .hbm, ⟨8, _⟩ => ⟨S18x200, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x200, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x200, .f32⟩
  | .hbm, ⟨27, _⟩ => ⟨S1024x288, .f32⟩
  | .hbm, ⟨28, _⟩ => ⟨S1x288, .f32⟩
  | .hbm, ⟨29, _⟩ => ⟨S1024x288, .f32⟩
  | .hbm, ⟨30, _⟩ => ⟨S1024x288, .f32⟩
  | .hbm, ⟨31, _⟩ => ⟨S1024x9x32, .f32⟩
  | .hbm, ⟨32, _⟩ => ⟨S192, .i32⟩
  | .hbm, ⟨33, _⟩ => ⟨S192x1, .i32⟩
  | .hbm, ⟨34, _⟩ => ⟨S9, .i32⟩
  | .hbm, ⟨35, _⟩ => ⟨S1x9, .i32⟩
  | .hbm, ⟨36, _⟩ => ⟨S192x9, .i32⟩
  | .hbm, ⟨37, _⟩ => ⟨S192x9, .i32⟩
  | .hbm, ⟨38, _⟩ => ⟨S192x9, .i32⟩
  | .hbm, ⟨39, _⟩ => ⟨S_, .i32⟩
  | .hbm, ⟨40, _⟩ => ⟨S192x9, .i32⟩
  | .hbm, ⟨41, _⟩ => ⟨S192x9, .i1⟩
  | .hbm, ⟨42, _⟩ => ⟨S_, .i32⟩
  | .hbm, ⟨43, _⟩ => ⟨S192x9, .i32⟩
  | .hbm, ⟨44, _⟩ => ⟨S192x9, .i32⟩
  | .hbm, ⟨45, _⟩ => ⟨S192x9, .i32⟩
  | .hbm, ⟨46, _⟩ => ⟨S192x9x1, .i32⟩
  | .hbm, ⟨47, _⟩ => ⟨S1024x192x9, .f32⟩
  | .hbm, ⟨48, _⟩ => ⟨S1024x32x192, .f32⟩
  | .hbm, ⟨49, _⟩ => ⟨S1024x6144, .f32⟩
  | .hbm, ⟨50, _⟩ => ⟨S1024x200, .f32⟩
  | .hbm, ⟨51, _⟩ => ⟨S1x200, .f32⟩
  | .hbm, ⟨52, _⟩ => ⟨S1024x200, .f32⟩
  | .hbm, ⟨53, _⟩ => ⟨S1024x200, .f32⟩
  | .hbm, ⟨54, _⟩ => ⟨S_, .f32⟩
  | .hbm, ⟨55, _⟩ => ⟨S1024x200, .f32⟩
  | .hbm, ⟨56, _⟩ => ⟨S1024x200, .f32⟩
  | .hbm, ⟨57, _⟩ => ⟨S200x40943, .f32⟩
  | .hbm, ⟨58, _⟩ => ⟨S1024x40943, .f32⟩
  | .hbm, ⟨59, _⟩ => ⟨S1x40943, .f32⟩
  | .hbm, ⟨60, _⟩ => ⟨S1024x40943, .f32⟩
  | .hbm, ⟨61, _⟩ => ⟨S1024x40943, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call0_cst : Ref sig .tc := ⟨.hbm, 54, rfl⟩
abbrev main_call0_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x9x32 : S1024x288.ShapeCasts S1024x9x32
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  shapeCasts_S1024x32x192_S1024x6144 : S1024x32x192.ShapeCasts S1024x6144
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S1024x200 : S_.BroadcastsInDim S1024x200 (![] : Fin 0 → Fin S1024x200.rank)
  transposes_S40943x200_S200x40943_1_0 : S40943x200.Transposes [1, 0] S200x40943
  bcast_S40943_S1x40943_1 : S40943.BroadcastsInDim S1x40943 (![1] : Fin 1 → Fin S1x40943.rank)
  bcast_S1x40943_S1024x40943_0_1 : S1x40943.BroadcastsInDim S1024x40943 (![0, 1] : Fin 2 → Fin S1024x40943.rank)
  gather_S40943x200_S1024x1_S1024x200_1_0_n_n_0_1_1200_wf : GatherDims.WF S40943x200 S1024x1 S1024x200 [1] [0] [] [0] [] 1 ![1, 200]
  gather_S18x200_S1024x1_S1024x200_1_0_n_n_0_1_1200_wf : GatherDims.WF S18x200 S1024x1 S1024x200 [1] [0] [] [0] [] 1 ![1, 200]
  dot_S1024x200_S200x288_S1024x288_1_0_0_1_n_n_wf : DotDims.WF S1024x200 S200x288 S1024x288 [1] [0] [0] [1] [] []
  gather_S1024x200_S192x9x1_S1024x192x9_0_1_n_n_1_2_10241_wf : GatherDims.WF S1024x200 S192x9x1 S1024x192x9 [0] [1] [] [1] [] 2 ![1024, 1]
  dot_S1024x9x32_S1024x192x9_S1024x32x192_1_2_2_1_0_0_wf : DotDims.WF S1024x9x32 S1024x192x9 S1024x32x192 [1] [2] [2] [1] [0] [0]
  dot_S1024x6144_S6144x200_S1024x200_1_0_0_1_n_n_wf : DotDims.WF S1024x6144 S6144x200 S1024x200 [1] [0] [0] [1] [] []
  dot_S1024x200_S200x40943_S1024x40943_1_0_0_1_n_n_wf : DotDims.WF S1024x200 S200x40943 S1024x40943 [1] [0] [0] [1] [] []

variable [Facts₀]

def gather_S40943x200_S1024x1_S1024x200_1_0_n_n_0_1_1200 : GatherDims S40943x200 S1024x1 S1024x200 where
  offsetDims := [1]
  collapsedSliceDims := [0]
  operandBatchingDims := []
  startIndicesBatchingDims := []
  startIndexMap := [0]
  indexVectorDim := 1
  sliceSizes := ![1, 200]
  wf := gather_S40943x200_S1024x1_S1024x200_1_0_n_n_0_1_1200_wf
def gather_S18x200_S1024x1_S1024x200_1_0_n_n_0_1_1200 : GatherDims S18x200 S1024x1 S1024x200 where
  offsetDims := [1]
  collapsedSliceDims := [0]
  operandBatchingDims := []
  startIndicesBatchingDims := []
  startIndexMap := [0]
  indexVectorDim := 1
  sliceSizes := ![1, 200]
  wf := gather_S18x200_S1024x1_S1024x200_1_0_n_n_0_1_1200_wf
def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x9x32_S1024x192x9_S1024x32x192_1_2_2_1_0_0 : DotDims S1024x9x32 S1024x192x9 S1024x32x192 where
  lhsContracting := [1]
  rhsContracting := [2]
  lhsNonContracting := [2]
  rhsNonContracting := [1]
  lhsBatch := [0]
  rhsBatch := [0]
  wf := dot_S1024x9x32_S1024x192x9_S1024x32x192_1_2_2_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x40943_S1024x40943_1_0_0_1_n_n : DotDims S1024x200 S200x40943 S1024x40943 where
  lhsContracting := [1]
  rhsContracting := [0]
  lhsNonContracting := [0]
  rhsNonContracting := [1]
  lhsBatch := []
  rhsBatch := []
  wf := dot_S1024x200_S200x40943_S1024x40943_1_0_0_1_n_n_wf

class Facts : Prop extends Facts₀ where

variable [Facts]
-- ==== Proof.Spec.lean ====
/-
  The mathematics both programs compute, one batch row at a time, over the extended reals.

  A batch row carries an entity embedding `e` and a relation embedding `r`, both of length 200.
  * `filt`: the relation row is sent through a linear layer to 288 = 9 · 32 filter taps,
    `k q = (Σ_d r d · W1 d q) + b1 q`.
  * `feat`: a valid one-dimensional convolution of the entity row with those taps, tap `j` of channel `o`
    stored at position `j · 32 + o`: `feat o w = Σ_{j<9} k (j · 32 + o) · e (w + j)`, for 32 channels and 192 positions.
  * `hid`: the 32 × 192 features, flattened channel-major (position `p` is channel `p / 192`, offset `p % 192`),
    go through a second linear layer and a rectifier: `h d = max ((Σ_p feat (p / 192) (p % 192) · W2 p d) + b2 d) 0`.
  * `logit`: the score of a batch row against one entity row `En` with its bias: `(Σ_d h d · En d) + bn`.
  Every product keeps the order both programs use (activation on the left, weight on the right), so the two sides meet
  with no appeal to commutativity of the product.
-/
import Idealize.ShloMosaic.PureOps.Ideal
import Idealize.ShloMosaic.Lib.ValueIdx

noncomputable section

namespace Cert.Spec

open Idealize.ShloMosaic

/-- The filter taps of one batch row: a linear layer on the relation row. -/
def filt (r : Fin 200 → EReal) (W1 : Fin 200 → Fin 288 → EReal) (b1 : Fin 288 → EReal) (q : Fin 288) : EReal :=
  (∑ d : Fin 200, r d * W1 d q) + b1 q

/-- Tap `j` of channel `o` sits at position `j · 32 + o` of the 288 taps. -/
abbrev tap (j : Fin 9) (o : Fin 32) : Fin 288 := ⟨j.val * 32 + o.val, by have := j.isLt; have := o.isLt; omega⟩

/-- Position `w` of the output reads the entity row at `w + j` under tap `j`. -/
abbrev shift (w : Fin 192) (j : Fin 9) : Fin 200 := ⟨w.val + j.val, by have := j.isLt; have := w.isLt; omega⟩

/-- The valid convolution of the entity row with the row's own taps. -/
def feat (e : Fin 200 → EReal) (k : Fin 288 → EReal) (o : Fin 32) (w : Fin 192) : EReal :=
  ∑ j : Fin 9, k (tap j o) * e (shift w j)

/-- Flat feature position `p` is channel `p / 192`, -/
abbrev chan (p : Fin 6144) : Fin 32 := ⟨p.val / 192, by have := p.isLt; omega⟩
/-- at offset `p % 192`. -/
abbrev offs (p : Fin 6144) : Fin 192 := ⟨p.val % 192, Nat.mod_lt _ (by decide)⟩

/-- The hidden row: the flattened features through the second linear layer, rectified. -/
def hid (e r : Fin 200 → EReal) (W1 : Fin 200 → Fin 288 → EReal) (b1 : Fin 288 → EReal)
    (W2 : Fin 6144 → Fin 200 → EReal) (b2 : Fin 200 → EReal) (d : Fin 200) : EReal :=
  max ((∑ p : Fin 6144, feat e (filt r W1 b1) (chan p) (offs p) * W2 p d) + b2 d) 0

/-- One score: the hidden row against an entity row, plus that entity's bias. -/
def logit (h : Fin 200 → EReal) (En : Fin 200 → EReal) (bn : EReal) : EReal :=
  (∑ d : Fin 200, h d * En d) + bn

end Cert.Spec

end
-- ==== Proof.HyperBody.lean ====
/-
  What one grid point of the first kernel leaves in its output block, read at an entry: row `b` of the block is the
  hidden row `Spec.hid` of row `b` of the entity and relation blocks under the resident weights.
-/
import proofs.«123047_j47605417509202_1_alg».proof.Proof.Gen.KernelIdeal.Frame
import proofs.«123047_j47605417509202_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx
open Cert.KernelIdeal Cert.KernelIdeal.Gen

theorem hz : (![0, 0] : Fin 2 → Nat) = fun _ => 0 := funext fun a => by fin_cases a <;> rfl

/-- What the block store leaves is its payload of the loaded blocks. -/
theorem out_eq (x0 x1 : Vec Ideal S256x200 .f32) (x2 : Vec Ideal S200x288 .f32) (x3 : Vec Ideal S1x288 .f32)
    (x4 : Vec Ideal S6144x200 .f32) (x5 : Vec Ideal S1x200 .f32) :
    out0_6 (F := Ideal) x0 x1 x2 x3 x4 x5 = k0_pay1 (k0_pay2 x0) (k0_pay3 x1 x2 x3) (k0_pay4 x0 x1 x2 x3) (k0_pay5 x1 x2 x3) (k0_pay6 x0) x4 x5 := by
  unfold out0_6
  rw [View.canon_unit_zero hz]
  simp only [View.ld_unit_zero (S := S256x200) hz, View.ld_unit_zero (S := S200x288) hz, View.ld_unit_zero (S := S1x288) hz, View.ld_unit_zero (S := S6144x200) hz, View.ld_unit_zero (S := S1x200) hz]

/-! ### The two products at an entry -/

theorem lhs1_0 (i : S256x288.Idx) (q : dot_S256x200_S200x288_S256x288_1_0_0_1_n_n.contr.Idx) :
    (dot_S256x200_S200x288_S256x288_1_0_0_1_n_n.lhsIdx i q 0).val = (i 0).val := by
  unfold DotDims.lhsIdx
  rw [dif_neg (show ¬(0 : Fin S256x200.rank) ∈ dot_S256x200_S200x288_S256x288_1_0_0_1_n_n.lhsBatch by decide), dif_pos (show (0 : Fin S256x200.rank) ∈ dot_S256x200_S200x288_S256x288_1_0_0_1_n_n.lhsNonContracting by decide)]
  rfl
theorem lhs1_1 (i : S256x288.Idx) (q : dot_S256x200_S200x288_S256x288_1_0_0_1_n_n.contr.Idx) :
    (dot_S256x200_S200x288_S256x288_1_0_0_1_n_n.lhsIdx i q 1).val = (q ⟨0, by decide⟩).val :=
  dot_S256x200_S200x288_S256x288_1_0_0_1_n_n.lhsIdx_val_of_single rfl i q
theorem rhs1_0 (i : S256x288.Idx) (q : dot_S256x200_S200x288_S256x288_1_0_0_1_n_n.contr.Idx) :
    (dot_S256x200_S200x288_S256x288_1_0_0_1_n_n.rhsIdx i q 0).val = (q ⟨0, by decide⟩).val :=
  dot_S256x200_S200x288_S256x288_1_0_0_1_n_n.rhsIdx_val_of_single rfl i q
theorem rhs1_1 (i : S256x288.Idx) (q : dot_S256x200_S200x288_S256x288_1_0_0_1_n_n.contr.Idx) :
    (dot_S256x200_S200x288_S256x288_1_0_0_1_n_n.rhsIdx i q 1).val = (i 1).val := by
  unfold DotDims.rhsIdx
  rw [dif_neg (show ¬(1 : Fin S200x288.rank) ∈ dot_S256x200_S200x288_S256x288_1_0_0_1_n_n.rhsBatch by decide), dif_pos (show (1 : Fin S200x288.rank) ∈ dot_S256x200_S200x288_S256x288_1_0_0_1_n_n.rhsNonContracting by decide)]
  rfl

/-- The first product into the zero accumulator, at an entry: the row of the left factor against the column of the right. -/
theorem matmul1_apply (A : FVec Ideal S256x200 .bf16) (W : FVec Ideal S200x288 .bf16) (b : Fin 256) (q : Fin 288) :
    matmul dot_S256x200_S200x288_S256x288_1_0_0_1_n_n none A W (constant S256x288 .f32 0x00000000#32) (ix2 b q)
      = ∑ k : Fin 200, A (ix2 b k) * W (ix2 k q) := by
  simp only [matmul]
  rw [Ideal.matmul_constant_zero_apply, ← Equiv.sum_comp (contrEquiv1 dot_S256x200_S200x288_S256x288_1_0_0_1_n_n 200 rfl rfl).symm]
  refine Finset.sum_congr rfl fun k _ => ?_
  have hk := contrEquiv1_symm_val dot_S256x200_S200x288_S256x288_1_0_0_1_n_n 200 rfl rfl k
  have el : dot_S256x200_S200x288_S256x288_1_0_0_1_n_n.lhsIdx (ix2 b q) ((contrEquiv1 dot_S256x200_S200x288_S256x288_1_0_0_1_n_n 200 rfl rfl).symm k) = ix2 b k := funext fun a => Fin.ext (by
    match a with
    | ⟨0, _⟩ => exact lhs1_0 _ _
    | ⟨1, _⟩ => exact (lhs1_1 _ _).trans hk)
  have er : dot_S256x200_S200x288_S256x288_1_0_0_1_n_n.rhsIdx (ix2 b q) ((contrEquiv1 dot_S256x200_S200x288_S256x288_1_0_0_1_n_n 200 rfl rfl).symm k) = ix2 k q := funext fun a => Fin.ext (by
    match a with
    | ⟨0, _⟩ => exact (rhs1_0 _ _).trans hk
    | ⟨1, _⟩ => exact rhs1_1 _ _)
  rw [el, er]

theorem lhs2_0 (i : S256x200.Idx) (q : dot_S256x6144_S6144x200_S256x200_1_0_0_1_n_n.contr.Idx) :
    (dot_S256x6144_S6144x200_S256x200_1_0_0_1_n_n.lhsIdx i q 0).val = (i 0).val := by
  unfold DotDims.lhsIdx
  rw [dif_neg (show ¬(0 : Fin S256x6144.rank) ∈ dot_S256x6144_S6144x200_S256x200_1_0_0_1_n_n.lhsBatch by decide), dif_pos (show (0 : Fin S256x6144.rank) ∈ dot_S256x6144_S6144x200_S256x200_1_0_0_1_n_n.lhsNonContracting by decide)]
  rfl
theorem lhs2_1 (i : S256x200.Idx) (q : dot_S256x6144_S6144x200_S256x200_1_0_0_1_n_n.contr.Idx) :
    (dot_S256x6144_S6144x200_S256x200_1_0_0_1_n_n.lhsIdx i q 1).val = (q ⟨0, by decide⟩).val :=
  dot_S256x6144_S6144x200_S256x200_1_0_0_1_n_n.lhsIdx_val_of_single rfl i q
theorem rhs2_0 (i : S256x200.Idx) (q : dot_S256x6144_S6144x200_S256x200_1_0_0_1_n_n.contr.Idx) :
    (dot_S256x6144_S6144x200_S256x200_1_0_0_1_n_n.rhsIdx i q 0).val = (q ⟨0, by decide⟩).val :=
  dot_S256x6144_S6144x200_S256x200_1_0_0_1_n_n.rhsIdx_val_of_single rfl i q
theorem rhs2_1 (i : S256x200.Idx) (q : dot_S256x6144_S6144x200_S256x200_1_0_0_1_n_n.contr.Idx) :
    (dot_S256x6144_S6144x200_S256x200_1_0_0_1_n_n.rhsIdx i q 1).val = (i 1).val := by
  unfold DotDims.rhsIdx
  rw [dif_neg (show ¬(1 : Fin S6144x200.rank) ∈ dot_S256x6144_S6144x200_S256x200_1_0_0_1_n_n.rhsBatch by decide), dif_pos (show (1 : Fin S6144x200.rank) ∈ dot_S256x6144_S6144x200_S256x200_1_0_0_1_n_n.rhsNonContracting by decide)]
  rfl

/-- The second product into the zero accumulator, at an entry. -/
theorem matmul2_apply (A : FVec Ideal S256x6144 .bf16) (W : FVec Ideal S6144x200 .bf16) (b : Fin 256) (d : Fin 200) :
    matmul dot_S256x6144_S6144x200_S256x200_1_0_0_1_n_n none A W (constant S256x200 .f32 0x00000000#32) (ix2 b d)
      = ∑ p : Fin 6144, A (ix2 b p) * W (ix2 p d) := by
  simp only [matmul]
  rw [Ideal.matmul_constant_zero_apply, ← Equiv.sum_comp (contrEquiv1 dot_S256x6144_S6144x200_S256x200_1_0_0_1_n_n 6144 rfl rfl).symm]
  refine Finset.sum_congr rfl fun k _ => ?_
  have hk := contrEquiv1_symm_val dot_S256x6144_S6144x200_S256x200_1_0_0_1_n_n 6144 rfl rfl k
  have el : dot_S256x6144_S6144x200_S256x200_1_0_0_1_n_n.lhsIdx (ix2 b d) ((contrEquiv1 dot_S256x6144_S6144x200_S256x200_1_0_0_1_n_n 6144 rfl rfl).symm k) = ix2 b k := funext fun a => Fin.ext (by
    match a with
    | ⟨0, _⟩ => exact lhs2_0 _ _
    | ⟨1, _⟩ => exact (lhs2_1 _ _).trans hk)
  have er : dot_S256x6144_S6144x200_S256x200_1_0_0_1_n_n.rhsIdx (ix2 b d) ((contrEquiv1 dot_S256x6144_S6144x200_S256x200_1_0_0_1_n_n 6144 rfl rfl).symm k) = ix2 k d := funext fun a => Fin.ext (by
    match a with
    | ⟨0, _⟩ => exact (rhs2_0 _ _).trans hk
    | ⟨1, _⟩ => exact rhs2_1 _ _)
  rw [el, er]

/-- The filter taps of row `b` at `q`. -/
theorem filt_apply (v2 : Vec Ideal S256x200 .f32) (v5 : Vec Ideal S200x288 .f32) (v8 : Vec Ideal S1x288 .f32) (b : Fin 256) (q : Fin 288) :
    k0_pay3 (F := Ideal) v2 v5 v8 (ix2 b q)
      = Spec.filt (fun d' => v2 (ix2 b d')) (fun d' q' => v5 (ix2 d' q')) (fun q' => v8 (ix2 0 q')) q := by
  unfold k0_pay3 Spec.filt
  rw [addf_apply, matmul1_apply, broadcastTo_1b_ab_apply, shapeCast_self, shapeCast_self]
  rfl

/-! ### The layout steps of one tap, at an entry -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, w)`, the operand at `(i, j, 0)`. -/
theorem broadcastTo_ab1_abc_apply {a b c : ℕ} (ha : a ≠ 1) (hb : b ≠ 1) (v : (⟨3, ![a, b, 1]⟩ : Shape).Idx → α)
    (h : (⟨3, ![a, b, 1]⟩ : Shape).Broadcasts ⟨3, ![a, b, c]⟩) (i : Fin a) (j : Fin b) (w : Fin c) :
    broadcastTo ⟨3, ![a, b, c]⟩ v h (ix3 i j w) = v (ix3 i j (0 : Fin 1)) := by
  refine broadcastTo_apply v h (ix3 i j w) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => exact (if_pos rfl).symm

/-- An `[a, 1, c]` array broadcast to `[a, b, c]` reads, at `(i, j, w)`, the operand at `(i, 0, w)`. -/
theorem broadcastTo_a1c_abc_apply {a b c : ℕ} (ha : a ≠ 1) (hc : c ≠ 1) (v : (⟨3, ![a, 1, c]⟩ : Shape).Idx → α)
    (h : (⟨3, ![a, 1, c]⟩ : Shape).Broadcasts ⟨3, ![a, b, c]⟩) (i : Fin a) (j : Fin b) (w : Fin c) :
    broadcastTo ⟨3, ![a, b, c]⟩ v h (ix3 i j w) = v (ix3 i (0 : Fin 1) w) := by
  refine broadcastTo_apply v h (ix3 i j w) (ix3 i (0 : Fin 1) w) fun ax => ?_
  match ax with
  | ⟨0, _⟩ => show i.val = if a = 1 then 0 else i.val; rw [if_neg ha]
  | ⟨1, _⟩ => exact (if_pos rfl).symm
  | ⟨2, _⟩ => show w.val = if c = 1 then 0 else w.val; rw [if_neg hc]

end Layout

/-- One tap's product over the whole block: the taps' columns from `oq` against the entity columns from `oe`. -/
def tapV (k : FVec Ideal S256x288 .f32) (e : FVec Ideal S256x200 .f32) (oq oe : Nat)
    (hq : S256x288.Slices ![0, oq] S256x32) (he : S256x200.Slices ![0, oe] S256x192) : FVec Ideal S256x32x192 .f32 :=
  mulf (broadcastTo S256x32x192 (shapeCast S256x32x1 (extractStridedSlice S256x32 ![0, oq] k hq) shapeCasts_S256x32_S256x32x1) broadcasts_S256x32x1_S256x32x192)
    (broadcastTo S256x32x192 (shapeCast S256x1x192 (extractStridedSlice S256x192 ![0, oe] e he) shapeCasts_S256x192_S256x1x192) broadcasts_S256x1x192_S256x32x192)

/-- At `(b, o, w)` it is the tap at column `oq + o` times the entity at column `oe + w`. -/
theorem tapV_apply (k : FVec Ideal S256x288 .f32) (e : FVec Ideal S256x200 .f32) (oq oe : Nat)
    (hq : S256x288.Slices ![0, oq] S256x32) (he : S256x200.Slices ![0, oe] S256x192) (b : Fin 256) (o : Fin 32) (w : Fin 192)
    (q : Fin 288) (hqv : q.val = oq + o.val) (c : Fin 200) (hcv : c.val = oe + w.val) :
    tapV k e oq oe hq he (ix3 b o w) = k (ix2 b q) * e (ix2 b c) := by
  unfold tapV
  rw [mulf_apply, broadcastTo_ab1_abc_apply (by decide) (by decide), broadcastTo_a1c_abc_apply (by decide) (by decide),
    shapeCast_ab_ab1_apply, shapeCast_ab_a1b_apply, slice2_axis1_apply oq k hq b o q hqv, slice2_axis1_apply oe e he b w c hcv]

/-- The loaded entity block passes through a same-shape cast unchanged. -/
theorem pay2_eq (v0 : Vec Ideal S256x200 .f32) : k0_pay2 (F := Ideal) v0 = v0 := shapeCast_self _ _

/-- The zero word is the extended real zero. -/
theorem zero_word : (Scalar.ofBits (F := Ideal) .f32 0x00000000#32 : EReal) = 0 := Ideal.ofBits_zero_f32

/-- The nine-tap accumulation over the whole block, in the order the body adds it. -/
def featV (k : FVec Ideal S256x288 .f32) (e : FVec Ideal S256x200 .f32) : FVec Ideal S256x32x192 .f32 :=
  addf (addf (addf (addf (addf (addf (addf (addf (addf (broadcast S256x32x192 (Scalar.ofBits (F := Ideal) .f32 0x00000000#32))
    (tapV k e 0 0 slices_S256x288_o0_0_S256x32 slices_S256x200_o0_0_S256x192))
    (tapV k e 32 1 slices_S256x288_o0_32_S256x32 slices_S256x200_o0_1_S256x192))
    (tapV k e 64 2 slices_S256x288_o0_64_S256x32 slices_S256x200_o0_2_S256x192))
    (tapV k e 96 3 slices_S256x288_o0_96_S256x32 slices_S256x200_o0_3_S256x192))
    (tapV k e 128 4 slices_S256x288_o0_128_S256x32 slices_S256x200_o0_4_S256x192))
    (tapV k e 160 5 slices_S256x288_o0_160_S256x32 slices_S256x200_o0_5_S256x192))
    (tapV k e 192 6 slices_S256x288_o0_192_S256x32 slices_S256x200_o0_6_S256x192))
    (tapV k e 224 7 slices_S256x288_o0_224_S256x32 slices_S256x200_o0_7_S256x192))
    (tapV k e 256 8 slices_S256x288_o0_256_S256x32 slices_S256x200_o0_8_S256x192)

/-- At `(b, o, w)` the accumulation is the valid convolution of row `b` of the entity block with row `b` of the taps:
    the chain `((0 + t₀) + t₁) + … + t₈` is the sum over the nine taps. -/
theorem featV_apply (k : FVec Ideal S256x288 .f32) (e : FVec Ideal S256x200 .f32) (b : Fin 256) (o : Fin 32) (w : Fin 192) :
    featV k e (ix3 b o w) = Spec.feat (fun d' => e (ix2 b d')) (fun q => k (ix2 b q)) o w := by
  unfold featV Spec.feat
  simp only [addf_apply]
  rw [tapV_apply k e 0 0 _ _ b o w (Spec.tap 0 o) (by show 0 * 32 + o.val = 0 + o.val; omega) (Spec.shift w 0) (by show w.val + 0 = 0 + w.val; omega),
    tapV_apply k e 32 1 _ _ b o w (Spec.tap 1 o) (by show 1 * 32 + o.val = 32 + o.val; omega) (Spec.shift w 1) (by show w.val + 1 = 1 + w.val; omega),
    tapV_apply k e 64 2 _ _ b o w (Spec.tap 2 o) (by show 2 * 32 + o.val = 64 + o.val; omega) (Spec.shift w 2) (by show w.val + 2 = 2 + w.val; omega),
    tapV_apply k e 96 3 _ _ b o w (Spec.tap 3 o) (by show 3 * 32 + o.val = 96 + o.val; omega) (Spec.shift w 3) (by show w.val + 3 = 3 + w.val; omega),
    tapV_apply k e 128 4 _ _ b o w (Spec.tap 4 o) (by show 4 * 32 + o.val = 128 + o.val; omega) (Spec.shift w 4) (by show w.val + 4 = 4 + w.val; omega),
    tapV_apply k e 160 5 _ _ b o w (Spec.tap 5 o) (by show 5 * 32 + o.val = 160 + o.val; omega) (Spec.shift w 5) (by show w.val + 5 = 5 + w.val; omega),
    tapV_apply k e 192 6 _ _ b o w (Spec.tap 6 o) (by show 6 * 32 + o.val = 192 + o.val; omega) (Spec.shift w 6) (by show w.val + 6 = 6 + w.val; omega),
    tapV_apply k e 224 7 _ _ b o w (Spec.tap 7 o) (by show 7 * 32 + o.val = 224 + o.val; omega) (Spec.shift w 7) (by show w.val + 7 = 7 + w.val; omega),
    tapV_apply k e 256 8 _ _ b o w (Spec.tap 8 o) (by show 8 * 32 + o.val = 256 + o.val; omega) (Spec.shift w 8) (by show w.val + 8 = 8 + w.val; omega),
    broadcast_apply, zero_word, zero_add, Fin.sum_univ_castSucc, Fin.sum_univ_eight]
  rfl

/-- The features flattened channel-major: flat position `p` of row `b` is channel `p / 192` at offset `p % 192`. -/
theorem flat_apply (Y : FVec Ideal S256x32x192 .f32) (b : Fin 256) (p : Fin 6144) :
    shapeCast S256x6144 Y shapeCasts_S256x32x192_S256x6144 (ix2 b p) = Y (ix3 b (Spec.chan p) (Spec.offs p)) :=
  shapeCast_apply Y _ _ _ (by
    rw [Shape.rowMajor_val_three, Shape.rowMajor_val_two]
    show (b.val * 32 + p.val / 192) * 192 + p.val % 192 = b.val * 6144 + p.val
    omega)

/-- The dense layer with its bias and rectifier over the whole block, as the body writes it. -/
def denseV (X : FVec Ideal S256x6144 .f32) (W : Vec Ideal S6144x200 .f32) (c : Vec Ideal S1x200 .f32) : FVec Ideal S256x200 .bf16 :=
  truncf .bf16 (maximumf (addf (matmul dot_S256x6144_S6144x200_S256x200_1_0_0_1_n_n none (truncf .bf16 X bitsLt_bf16_f32) (truncf .bf16 W bitsLt_bf16_f32)
      (constant S256x200 .f32 0x00000000#32)) (broadcastTo S256x200 (shapeCast S1x200 c shapeCasts_S1x200_S1x200) broadcasts_S1x200_S256x200))
    (broadcast S256x200 (Scalar.ofBits (F := Ideal) .f32 0x00000000#32))) bitsLt_bf16_f32

/-- At `(b, d)` it is the rectified affine form of row `b`. -/
theorem denseV_apply (X : FVec Ideal S256x6144 .f32) (W : Vec Ideal S6144x200 .f32) (c : Vec Ideal S1x200 .f32) (b : Fin 256) (d : Fin 200) :
    denseV X W c (ix2 b d) = max ((∑ p : Fin 6144, X (ix2 b p) * W (ix2 p d)) + c (ix2 0 d)) 0 := by
  unfold denseV
  rw [truncf_apply, maximumf_apply, addf_apply, matmul2_apply, broadcastTo_1b_ab_apply, shapeCast_self, broadcast_apply, zero_word]
  rfl

/-- The stored payload is the dense layer of the flattened nine-tap features of the loaded blocks. -/
theorem pay1_eq (x0 x1 : Vec Ideal S256x200 .f32) (x2 : Vec Ideal S200x288 .f32) (x3 : Vec Ideal S1x288 .f32)
    (x4 : Vec Ideal S6144x200 .f32) (x5 : Vec Ideal S1x200 .f32) :
    k0_pay1 (F := Ideal) (k0_pay2 x0) (k0_pay3 x1 x2 x3) (k0_pay4 x0 x1 x2 x3) (k0_pay5 x1 x2 x3) (k0_pay6 x0) x4 x5
      = denseV (shapeCast S256x6144 (featV (k0_pay3 x1 x2 x3) (k0_pay2 x0)) shapeCasts_S256x32x192_S256x6144) x4 x5 := rfl

/-- Entry `(b, d)` of the block the first kernel stores is the hidden row of batch row `b` at `d`. -/
theorem hyper_block_apply (x0 x1 : Vec Ideal S256x200 .f32) (x2 : Vec Ideal S200x288 .f32) (x3 : Vec Ideal S1x288 .f32)
    (x4 : Vec Ideal S6144x200 .f32) (x5 : Vec Ideal S1x200 .f32) (b : Fin 256) (d : Fin 200) :
    (out0_6 (F := Ideal) x0 x1 x2 x3 x4 x5 : S256x200.Idx → EReal) (ix2 b d)
      = Spec.hid (fun d' => x0 (ix2 b d')) (fun d' => x1 (ix2 b d')) (fun d' q => x2 (ix2 d' q)) (fun q => x3 (ix2 0 q))
          (fun p d' => x4 (ix2 p d')) (fun d' => x5 (ix2 0 d')) d := by
  rw [out_eq, pay1_eq, denseV_apply]
  unfold Spec.hid
  have hk : (fun q => k0_pay3 (F := Ideal) x1 x2 x3 (ix2 b q))
      = Spec.filt (fun d' => x1 (ix2 b d')) (fun d' q => x2 (ix2 d' q)) (fun q => x3 (ix2 0 q)) :=
    funext fun q => filt_apply x1 x2 x3 b q
  refine congrArg (fun s => max (s + x5 (ix2 0 d)) 0) (Finset.sum_congr rfl fun p _ => ?_)
  rw [flat_apply, featV_apply, pay2_eq, hk]

end Cert.Bridge

end
-- ==== Proof.HyperArray.lean ====
/-
  The first kernel's result array after its four grid points: row `b` of the [1024, 200] array is the hidden row of batch
  row `b`. Grid point `t` owns rows `256 t … 256 t + 255`; its entity and relation blocks are those rows of the two
  gathered tables, its weight and bias blocks the whole resident arrays, and the four row bands tile the array.
-/
import proofs.«123047_j47605417509202_1_alg».proof.Proof.Gen.KernelIdeal.Frame
import proofs.«123047_j47605417509202_1_alg».proof.Proof.Spec
import proofs.«123047_j47605417509202_1_alg».proof.Proof.HyperBody
import Idealize.ShloMosaic.Lib.ValueIdx
import Idealize.ShloMosaic.Lib.Pipeline.Value

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

/-- The hidden rows of all 1024 batch rows as one array, from the gathered entity and relation tables, the two weight
    matrices and the two bias rows (each bias a one-row matrix, as the kernel takes it). -/
def hidArr (e r : S1024x200.Idx → EReal) (w1 : S200x288.Idx → EReal) (b1 : S1x288.Idx → EReal)
    (w2 : S6144x200.Idx → EReal) (b2 : S1x200.Idx → EReal) : S1024x200.Idx → EReal :=
  fun i => Spec.hid (fun d => e (ix2 ⟨(i 0).val, idx2_lt0 i⟩ d)) (fun d => r (ix2 ⟨(i 0).val, idx2_lt0 i⟩ d))
    (fun d q => w1 (ix2 d q)) (fun q => b1 (ix2 0 q)) (fun p d => w2 (ix2 p d)) (fun d => b2 (ix2 0 d)) ⟨(i 1).val, idx2_lt1 i⟩

variable (V : (c : Dev nD) → (b : Ref sig .tc) → Buf (Elt Ideal) ((c : Thread nD τ).loc b))

/-- The printed index maps over the four grid points: the entity, relation and result windows sit at block `(t, 0)`,
    the two weight matrices and the two bias rows at block `(0, 0)`. -/
theorem hyper_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `x` of the entity block at point `t` is the gathered entity table at row `256 t + x 0`, column `x 1`. -/
theorem ent_blk (c : Dev nD) (t : Fin cfg0.N) (x : S256x200.Idx) (k : S1024x200.Idx)
    (hk0 : (k 0).val = 256 * t.val + (x 0).val) (hk1 : (k 1).val = (x 1).val) :
    (iblk0 (F := Ideal) V c 0 t : S256x200.Idx → EReal) x = (V c main_v6 : S1024x200.Idx → EReal) k := by
  obtain ⟨e0, e1, -⟩ := hyper_idx_facts t
  unfold iblk0
  rw [View.read_apply]
  show (V c main_v6 : S1024x200.Idx → EReal) _ = (V c main_v6 : S1024x200.Idx → EReal) k
  refine congrArg (V c main_v6 : S1024x200.Idx → EReal) ?_
  funext a
  apply Fin.ext
  match a with
  | ⟨0, _⟩ => show win0_0.index t (0 : Fin 2) * 256 + 1 * (x 0).val = (k 0).val; rw [e0, hk0]; omega
  | ⟨1, _⟩ => show win0_0.index t (1 : Fin 2) * 200 + 1 * (x 1).val = (k 1).val; rw [e1, hk1]; omega

/-- Entry `x` of the relation block at point `t` is the gathered relation table at row `256 t + x 0`, column `x 1`. -/
theorem rel_blk (c : Dev nD) (t : Fin cfg0.N) (x : S256x200.Idx) (k : S1024x200.Idx)
    (hk0 : (k 0).val = 256 * t.val + (x 0).val) (hk1 : (k 1).val = (x 1).val) :
    (iblk0 (F := Ideal) V c 1 t : S256x200.Idx → EReal) x = (V c main_v13 : S1024x200.Idx → EReal) k := by
  obtain ⟨-, -, e0, e1, -⟩ := hyper_idx_facts t
  unfold iblk0
  rw [View.read_apply]
  show (V c main_v13 : S1024x200.Idx → EReal) _ = (V c main_v13 : S1024x200.Idx → EReal) k
  refine congrArg (V c main_v13 : S1024x200.Idx → EReal) ?_
  funext a
  apply Fin.ext
  match a with
  | ⟨0, _⟩ => show win0_1.index t (0 : Fin 2) * 256 + 1 * (x 0).val = (k 0).val; rw [e0, hk0]; omega
  | ⟨1, _⟩ => show win0_1.index t (1 : Fin 2) * 200 + 1 * (x 1).val = (k 1).val; rw [e1, hk1]; omega

/-- The first weight matrix's block is the whole matrix at every point. -/
theorem w1_blk (c : Dev nD) (t : Fin cfg0.N) :
    (iblk0 (F := Ideal) V c 2 t : S200x288.Idx → EReal) = (V c main_arg2 : S200x288.Idx → EReal) := by
  obtain ⟨-, -, -, -, e0, e1, -⟩ := hyper_idx_facts t
  funext x
  unfold iblk0
  rw [View.read_apply]
  show (V c main_arg2 : S200x288.Idx → EReal) _ = (V c main_arg2 : S200x288.Idx → EReal) x
  refine congrArg (V c main_arg2 : S200x288.Idx → EReal) ?_
  funext a
  apply Fin.ext
  match a with
  | ⟨0, _⟩ => show win0_2.index t (0 : Fin 2) * 200 + 1 * (x 0).val = (x 0).val; rw [e0]; omega
  | ⟨1, _⟩ => show win0_2.index t (1 : Fin 2) * 288 + 1 * (x 1).val = (x 1).val; rw [e1]; omega

/-- The first bias row's block is the whole row at every point. -/
theorem b1_blk (c : Dev nD) (t : Fin cfg0.N) :
    (iblk0 (F := Ideal) V c 3 t : S1x288.Idx → EReal) = (V c main_v14 : S1x288.Idx → EReal) := by
  obtain ⟨-, -, -, -, -, -, e0, e1, -⟩ := hyper_idx_facts t
  funext x
  unfold iblk0
  rw [View.read_apply]
  show (V c main_v14 : S1x288.Idx → EReal) _ = (V c main_v14 : S1x288.Idx → EReal) x
  refine congrArg (V c main_v14 : S1x288.Idx → EReal) ?_
  funext a
  apply Fin.ext
  match a with
  | ⟨0, _⟩ => show win0_3.index t (0 : Fin 2) * 1 + 1 * (x 0).val = (x 0).val; rw [e0]; omega
  | ⟨1, _⟩ => show win0_3.index t (1 : Fin 2) * 288 + 1 * (x 1).val = (x 1).val; rw [e1]; omega

/-- The second weight matrix's block is the whole matrix at every point. -/
theorem w2_blk (c : Dev nD) (t : Fin cfg0.N) :
    (iblk0 (F := Ideal) V c 4 t : S6144x200.Idx → EReal) = (V c main_arg4 : S6144x200.Idx → EReal) := by
  obtain ⟨-, -, -, -, -, -, -, -, e0, e1, -⟩ := hyper_idx_facts t
  funext x
  unfold iblk0
  rw [View.read_apply]
  show (V c main_arg4 : S6144x200.Idx → EReal) _ = (V c main_arg4 : S6144x200.Idx → EReal) x
  refine congrArg (V c main_arg4 : S6144x200.Idx → EReal) ?_
  funext a
  apply Fin.ext
  match a with
  | ⟨0, _⟩ => show win0_4.index t (0 : Fin 2) * 6144 + 1 * (x 0).val = (x 0).val; rw [e0]; omega
  | ⟨1, _⟩ => show win0_4.index t (1 : Fin 2) * 200 + 1 * (x 1).val = (x 1).val; rw [e1]; omega

/-- The second bias row's block is the whole row at every point. -/
theorem b2_blk (c : Dev nD) (t : Fin cfg0.N) :
    (iblk0 (F := Ideal) V c 5 t : S1x200.Idx → EReal) = (V c main_v15 : S1x200.Idx → EReal) := by
  obtain ⟨-, -, -, -, -, -, -, -, -, -, e0, e1, -⟩ := hyper_idx_facts t
  funext x
  unfold iblk0
  rw [View.read_apply]
  show (V c main_v15 : S1x200.Idx → EReal) _ = (V c main_v15 : S1x200.Idx → EReal) x
  refine congrArg (V c main_v15 : S1x200.Idx → EReal) ?_
  funext a
  apply Fin.ext
  match a with
  | ⟨0, _⟩ => show win0_5.index t (0 : Fin 2) * 1 + 1 * (x 0).val = (x 0).val; rw [e0]; omega
  | ⟨1, _⟩ => show win0_5.index t (1 : Fin 2) * 200 + 1 * (x 1).val = (x 1).val; rw [e1]; omega

/-- One entry of the block a grid point stores: entry `(p, q)` of point `t`'s block is the hidden row at the array
    index `i` with row `256 t + p` and column `q`. -/
theorem hyper_point (c : Dev nD) (t : Fin cfg0.N) (p : Fin 256) (q : Fin 200) (i : S1024x200.Idx)
    (hi0 : (i 0).val = 256 * t.val + p.val) (hi1 : (i 1).val = q.val) :
    (out0_6 (F := Ideal) (iblk0 V c 0 t) (iblk0 V c 1 t) (iblk0 V c 2 t) (iblk0 V c 3 t) (iblk0 V c 4 t) (iblk0 V c 5 t)
        : S256x200.Idx → EReal) (ix2 p q)
      = hidArr (V c main_v6) (V c main_v13) (V c main_arg2) (V c main_v14) (V c main_arg4) (V c main_v15) i := by
  rw [hyper_block_apply]
  unfold hidArr
  have he : (fun d' : Fin 200 => (iblk0 (F := Ideal) V c 0 t : S256x200.Idx → EReal) (ix2 p d'))
      = fun d => (V c main_v6 : S1024x200.Idx → EReal) (ix2 ⟨(i 0).val, idx2_lt0 i⟩ d) :=
    funext fun d => ent_blk V c t (ix2 p d) (ix2 ⟨(i 0).val, idx2_lt0 i⟩ d) hi0 rfl
  have hr : (fun d' : Fin 200 => (iblk0 (F := Ideal) V c 1 t : S256x200.Idx → EReal) (ix2 p d'))
      = fun d => (V c main_v13 : S1024x200.Idx → EReal) (ix2 ⟨(i 0).val, idx2_lt0 i⟩ d) :=
    funext fun d => rel_blk V c t (ix2 p d) (ix2 ⟨(i 0).val, idx2_lt0 i⟩ d) hi0 rfl
  have hq : q = ⟨(i 1).val, idx2_lt1 i⟩ := Fin.ext hi1.symm
  rw [he, hr, w1_blk, b1_blk, w2_blk, b2_blk, ← hq]

/-- What point `t` writes back is its block of the hidden rows of the region-entry arrays. -/
theorem hyper_flushed (c : Dev nD) (t : Fin cfg0.N) :
    (dat0 (F := Ideal) V c).flushed 6 t = ((cfg0.win 6).blk t).view.read (Elt Ideal)
      (hidArr (V c main_v6) (V c main_v13) (V c main_arg2) (V c main_v14) (V c main_arg4) (V c main_v15)) := by
  show (cfg0.win 6).cut (grid0.coords t) ((dat0 V c).after 6 t) = _
  rw [after0_6]
  obtain ⟨-, -, -, -, -, -, -, -, -, -, -, -, e0, e1⟩ := hyper_idx_facts t
  funext j
  obtain ⟨p, q, rfl⟩ : ∃ (p : Fin 256) (q : Fin 200), j = ix2 p q := ⟨j 0, j 1, eq_ix2 j⟩
  rw [View.read_apply]
  refine hyper_point V c t p q _ ?_ ?_
  · show win0_6.index t (0 : Fin 2) * 256 + 1 * p.val = 256 * t.val + p.val; rw [e0]; omega
  · show win0_6.index t (1 : Fin 2) * 200 + 1 * q.val = q.val; rw [e1]; omega

/-- An index of the result array is in point `t`'s block iff each coordinate is in the block's range on its axis. -/
theorem hyper_mem_blk (t : Fin cfg0.N) (i : S1024x200.Idx) :
    i ∈ ((cfg0.win 6).blk t).view.set ↔ ∀ a : Fin 2, win0_6.index t a * S256x200.size a ≤ (i a).val
      ∧ (i a).val < win0_6.index t a * S256x200.size a + S256x200.size a := by
  show i ∈ ((View.whole main_v16).slice (win0_6.rect t)).set ↔ _
  rw [View.set_slice_whole, Rect.mem_set_unit]
  exact Iff.rfl

/-- The four row bands tile the array: row `r` is in the block of point `r / 256`. -/
theorem hyper_cover (i : S1024x200.Idx) :
    ∃ t : Fin cfg0.N, (cfg0.win 6).flush t = true ∧ i ∈ ((cfg0.win 6).blk t).view.set := by
  have hi0 : (i 0).val < 1024 := idx2_lt0 i
  have hi1 : (i 1).val < 200 := idx2_lt1 i
  obtain ⟨t, ht⟩ : ∃ t : Fin cfg0.N, t.val = (i 0).val / 256 :=
    ⟨⟨(i 0).val / 256, by rw [show cfg0.N = 4 from N_0]; omega⟩, rfl⟩
  obtain ⟨-, -, -, -, -, -, -, -, -, -, -, -, e0, e1⟩ := hyper_idx_facts t
  refine ⟨t, flush0_6 t, ?_⟩
  rw [hyper_mem_blk]
  intro a
  match a with
  | ⟨0, _⟩ =>
    show win0_6.index t (0 : Fin 2) * 256 ≤ (i 0).val ∧ (i 0).val < win0_6.index t (0 : Fin 2) * 256 + 256
    rw [e0, ht]; omega
  | ⟨1, _⟩ =>
    show win0_6.index t (1 : Fin 2) * 200 ≤ (i 1).val ∧ (i 1).val < win0_6.index t (1 : Fin 2) * 200 + 200
    rw [e1]; omega

/-- After the region's last grid point its result array holds the hidden rows of the arrays the region was entered with. -/
theorem hyper_array (c : Dev nD) :
    ((dat0 (F := Ideal) V c).arrAt 6 cfg0.N : S1024x200.Idx → EReal)
      = hidArr (V c main_v6) (V c main_v13) (V c main_arg2) (V c main_v14) (V c main_arg4) (V c main_v15) :=
  (dat0 (F := Ideal) V c).arrAt_eq_of_cover 6
    (hidArr (V c main_v6) (V c main_v13) (V c main_arg2) (V c main_v14) (V c main_arg4) (V c main_v15))
    (fun t _ => hyper_flushed V c t) hyper_cover

end Cert.Bridge

end
-- ==== Proof.FinalBody.lean ====
/-
  What one grid point of the second kernel leaves in its output block, read at an entry: the score of batch row `b`
  against row `n` of the entity tile, plus that entity's bias.
-/
import proofs.«123047_j47605417509202_1_alg».proof.Proof.Gen.KernelIdeal.Frame
import proofs.«123047_j47605417509202_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx
open Cert.KernelIdeal Cert.KernelIdeal.Gen

/-- The whole-block offsets `(0, 0)` are the zero offsets. -/
theorem hz_final : (![0, 0] : Fin 2 → Nat) = fun _ => 0 := funext fun a => by fin_cases a <;> rfl

/-! ## The score contraction's operand indices: hidden row `b` at `d`, entity row `n` at `d` -/

theorem lhs_score_0 (i : S1024x2048.Idx) (q : dot_S1024x200_S2048x200_S1024x2048_1_1_0_0_n_n.contr.Idx) :
    (dot_S1024x200_S2048x200_S1024x2048_1_1_0_0_n_n.lhsIdx i q 0).val = (i 0).val := by
  unfold DotDims.lhsIdx
  rw [dif_neg (show ¬(0 : Fin S1024x200.rank) ∈ dot_S1024x200_S2048x200_S1024x2048_1_1_0_0_n_n.lhsBatch by decide), dif_pos (show (0 : Fin S1024x200.rank) ∈ dot_S1024x200_S2048x200_S1024x2048_1_1_0_0_n_n.lhsNonContracting by decide)]
  rfl
theorem lhs_score_1 (i : S1024x2048.Idx) (q : dot_S1024x200_S2048x200_S1024x2048_1_1_0_0_n_n.contr.Idx) :
    (dot_S1024x200_S2048x200_S1024x2048_1_1_0_0_n_n.lhsIdx i q 1).val = (q ⟨0, by decide⟩).val :=
  dot_S1024x200_S2048x200_S1024x2048_1_1_0_0_n_n.lhsIdx_val_of_single rfl i q
theorem rhs_score_0 (i : S1024x2048.Idx) (q : dot_S1024x200_S2048x200_S1024x2048_1_1_0_0_n_n.contr.Idx) :
    (dot_S1024x200_S2048x200_S1024x2048_1_1_0_0_n_n.rhsIdx i q 0).val = (i 1).val := by
  unfold DotDims.rhsIdx
  rw [dif_neg (show ¬(0 : Fin S2048x200.rank) ∈ dot_S1024x200_S2048x200_S1024x2048_1_1_0_0_n_n.rhsBatch by decide), dif_pos (show (0 : Fin S2048x200.rank) ∈ dot_S1024x200_S2048x200_S1024x2048_1_1_0_0_n_n.rhsNonContracting by decide)]
  rfl
theorem rhs_score_1 (i : S1024x2048.Idx) (q : dot_S1024x200_S2048x200_S1024x2048_1_1_0_0_n_n.contr.Idx) :
    (dot_S1024x200_S2048x200_S1024x2048_1_1_0_0_n_n.rhsIdx i q 1).val = (q ⟨0, by decide⟩).val :=
  dot_S1024x200_S2048x200_S1024x2048_1_1_0_0_n_n.rhsIdx_val_of_single rfl i q

/-- The contraction into the zero block, read at `(b, n)`: the sum over `d` of hidden `(b, d)` times entity `(n, d)`. -/
theorem score_matmul_apply (h : FVec Ideal S1024x200 .bf16) (E : FVec Ideal S2048x200 .bf16) (b : Fin 1024) (n : Fin 2048) :
    matmul dot_S1024x200_S2048x200_S1024x2048_1_1_0_0_n_n none h E (constant (F := Ideal) S1024x2048 .f32 0x00000000#32) (ix2 b n)
      = ∑ d : Fin 200, h (ix2 b d) * E (ix2 n d) := by
  show FloatOps.matmul _ _ _ _ _ _ = _
  rw [Ideal.matmul_constant_zero_apply, ← Equiv.sum_comp (ValueIdx.contrEquiv1 dot_S1024x200_S2048x200_S1024x2048_1_1_0_0_n_n 200 rfl rfl).symm]
  refine Finset.sum_congr rfl fun k _ => ?_
  have hk := ValueIdx.contrEquiv1_symm_val dot_S1024x200_S2048x200_S1024x2048_1_1_0_0_n_n 200 rfl rfl k
  have el : dot_S1024x200_S2048x200_S1024x2048_1_1_0_0_n_n.lhsIdx (ix2 b n) ((ValueIdx.contrEquiv1 dot_S1024x200_S2048x200_S1024x2048_1_1_0_0_n_n 200 rfl rfl).symm k) = ix2 b k := funext fun a => Fin.ext (by
    match a with
    | ⟨0, _⟩ => exact lhs_score_0 _ _
    | ⟨1, _⟩ => exact (lhs_score_1 _ _).trans hk)
  have er : dot_S1024x200_S2048x200_S1024x2048_1_1_0_0_n_n.rhsIdx (ix2 b n) ((ValueIdx.contrEquiv1 dot_S1024x200_S2048x200_S1024x2048_1_1_0_0_n_n 200 rfl rfl).symm k) = ix2 n k := funext fun a => Fin.ext (by
    match a with
    | ⟨0, _⟩ => exact rhs_score_0 _ _
    | ⟨1, _⟩ => exact (rhs_score_1 _ _).trans hk)
  rw [el, er]

/-- Entry `(b, n)` of the block the second kernel stores is the score of hidden row `b` against entity row `n` of the tile. -/
theorem final_block_apply (x0 : Vec Ideal S1024x200 .bf16) (x1 : Vec Ideal S2048x200 .f32) (x2 : Vec Ideal S1x2048 .f32)
    (b : Fin 1024) (n : Fin 2048) :
    (out1_3 (F := Ideal) x0 x1 x2 : S1024x2048.Idx → EReal) (ix2 b n)
      = Spec.logit (fun d => x0 (ix2 b d)) (fun d => x1 (ix2 n d)) (x2 (ix2 0 n)) := by
  unfold out1_3
  rw [View.canon_unit_zero hz_final]
  simp only [View.ld_unit_zero (S := S1024x200) hz_final, View.ld_unit_zero (S := S2048x200) hz_final,
    View.ld_unit_zero (S := S1x2048) hz_final]
  unfold k1_pay1
  rw [addf_apply, shapeCast_self, shapeCast_self, shapeCast_self, score_matmul_apply, broadcastTo_1b_ab_apply]
  unfold Spec.logit
  rfl

end Cert.Bridge

end
-- ==== Proof.FinalArray.lean ====
/-
  The second kernel's result array after its twenty grid points: entry `(b, n)` of the [1024, 40960] array is the score of
  hidden row `b` against row `n` of the padded entity table plus entry `n` of the padded bias row. Grid point `t` owns
  columns `2048 t … 2048 t + 2047`; its entity block is those rows of the padded table, its bias block those columns of
  the bias row, its hidden block the whole resident array, and the twenty column bands tile the array.
-/
import proofs.«123047_j47605417509202_1_alg».proof.Proof.Gen.KernelIdeal.Frame
import proofs.«123047_j47605417509202_1_alg».proof.Proof.Spec
import proofs.«123047_j47605417509202_1_alg».proof.Proof.FinalBody
import Idealize.ShloMosaic.Lib.ValueIdx
import Idealize.ShloMosaic.Lib.Pipeline.Value

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

/-- All scores over the padded entity table as one array. -/
def logitArr (h : S1024x200.Idx → EReal) (Ep : S40960x200.Idx → EReal) (bp : S1x40960.Idx → EReal) : S1024x40960.Idx → EReal :=
  fun i => Spec.logit (fun d => h (ix2 ⟨(i 0).val, idx2_lt0 i⟩ d)) (fun d => Ep (ix2 ⟨(i 1).val, idx2_lt1 i⟩ d))
    (bp (ix2 0 ⟨(i 1).val, idx2_lt1 i⟩))

variable (V : (c : Dev nD) → (b : Ref sig .tc) → Buf (Elt Ideal) ((c : Thread nD τ).loc b))

/-- Where each window's block sits at grid point `t`: the hidden array stays whole, the entity tile is row band `t` of the
    padded table, the bias tile and the result tile are column band `t`. -/
theorem band_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The hidden block at any point is the whole hidden array. -/
theorem hidden_block_apply (c : Dev nD) (t : Fin cfg1.N) (p : Fin 1024) (d : Fin 200) (k : S1024x200.Idx)
    (hk0 : (k 0).val = p.val) (hk1 : (k 1).val = d.val) :
    (iblk1 (F := Ideal) V c 0 t : Vec Ideal S1024x200 .bf16) (ix2 p d) = (V c main_v16 : S1024x200.Idx → EReal) k := by
  obtain ⟨e0, e1, -⟩ := band_facts t
  unfold iblk1
  rw [View.read_apply]
  show V c main_v16 _ = V c main_v16 _
  congr 1
  funext a
  apply Fin.ext
  match a with
  | ⟨0, _⟩ => show win1_0.index t (0 : Fin 2) * 1024 + 1 * p.val = (k 0).val; omega
  | ⟨1, _⟩ => show win1_0.index t (1 : Fin 2) * 200 + 1 * d.val = (k 1).val; omega

/-- The entity block at point `t` is rows `2048 t … 2048 t + 2047` of the padded table. -/
theorem entity_block_apply (c : Dev nD) (t : Fin cfg1.N) (q : Fin 2048) (d : Fin 200) (k : S40960x200.Idx)
    (hk0 : (k 0).val = 2048 * t.val + q.val) (hk1 : (k 1).val = d.val) :
    (iblk1 (F := Ideal) V c 1 t : Vec Ideal S2048x200 .f32) (ix2 q d) = (V c main_v17 : S40960x200.Idx → EReal) k := by
  obtain ⟨-, -, e0, e1, -⟩ := band_facts t
  unfold iblk1
  rw [View.read_apply]
  show V c main_v17 _ = V c main_v17 _
  congr 1
  funext a
  apply Fin.ext
  match a with
  | ⟨0, _⟩ => show win1_1.index t (0 : Fin 2) * 2048 + 1 * q.val = (k 0).val; omega
  | ⟨1, _⟩ => show win1_1.index t (1 : Fin 2) * 200 + 1 * d.val = (k 1).val; omega

/-- The bias block at point `t` is columns `2048 t … 2048 t + 2047` of the padded bias row. -/
theorem bias_block_apply (c : Dev nD) (t : Fin cfg1.N) (q : Fin 2048) (k : S1x40960.Idx)
    (hk0 : (k 0).val = 0) (hk1 : (k 1).val = 2048 * t.val + q.val) :
    (iblk1 (F := Ideal) V c 2 t : Vec Ideal S1x2048 .f32) (ix2 0 q) = (V c main_v19 : S1x40960.Idx → EReal) k := by
  obtain ⟨-, -, -, -, e0, e1, -⟩ := band_facts t
  unfold iblk1
  rw [View.read_apply]
  show V c main_v19 _ = V c main_v19 _
  congr 1
  funext a
  apply Fin.ext
  match a with
  | ⟨0, _⟩ => show win1_2.index t (0 : Fin 2) * 1 + 1 * 0 = (k 0).val; omega
  | ⟨1, _⟩ => show win1_2.index t (1 : Fin 2) * 2048 + 1 * q.val = (k 1).val; omega

/-- Entry `(p, q)` of what point `t` stores is the score at row `p`, column `2048 t + q` of the whole array. -/
theorem point_entry (c : Dev nD) (t : Fin cfg1.N) (p : Fin 1024) (q : Fin 2048) (i : S1024x40960.Idx)
    (hi0 : (i 0).val = p.val) (hi1 : (i 1).val = 2048 * t.val + q.val) :
    (out1_3 (F := Ideal) (iblk1 V c 0 t) (iblk1 V c 1 t) (iblk1 V c 2 t) : S1024x2048.Idx → EReal) (ix2 p q)
      = logitArr (V c main_v16) (V c main_v17) (V c main_v19) i := by
  rw [final_block_apply]
  unfold logitArr
  have eh : (fun d : Fin 200 => (iblk1 (F := Ideal) V c 0 t : Vec Ideal S1024x200 .bf16) (ix2 p d))
      = fun d => (V c main_v16 : S1024x200.Idx → EReal) (ix2 ⟨(i 0).val, idx2_lt0 i⟩ d) :=
    funext fun d => hidden_block_apply V c t p d _ hi0 rfl
  have eE : (fun d : Fin 200 => (iblk1 (F := Ideal) V c 1 t : Vec Ideal S2048x200 .f32) (ix2 q d))
      = fun d => (V c main_v17 : S40960x200.Idx → EReal) (ix2 ⟨(i 1).val, idx2_lt1 i⟩ d) :=
    funext fun d => entity_block_apply V c t q d _ hi1 rfl
  have eb : (iblk1 (F := Ideal) V c 2 t : Vec Ideal S1x2048 .f32) (ix2 0 q)
      = (V c main_v19 : S1x40960.Idx → EReal) (ix2 0 ⟨(i 1).val, idx2_lt1 i⟩) :=
    bias_block_apply V c t q _ rfl hi1
  rw [eh, eE, eb]

/-- What point `t` writes back is block `t` of the array of all scores. -/
theorem flushed_eq (c : Dev nD) (t : Fin cfg1.N) :
    (dat1 (F := Ideal) V c).flushed 3 t
      = ((cfg1.win 3).blk t).view.read (Elt Ideal) (logitArr (V c main_v16) (V c main_v17) (V c main_v19)) := by
  show (cfg1.win 3).cut (grid1.coords t) ((dat1 (F := Ideal) V c).after 3 t) = _
  rw [after1_3]
  obtain ⟨-, -, -, -, -, -, e0, e1⟩ := band_facts t
  funext j
  obtain ⟨p, q, rfl⟩ : ∃ (p : Fin 1024) (q : Fin 2048), j = ix2 p q := ⟨j 0, j 1, eq_ix2 j⟩
  refine point_entry V c t p q (((cfg1.win 3).blk t).view.emb (ix2 p q)) ?_ ?_
  · show win1_3.index t (0 : Fin 2) * 1024 + 1 * p.val = p.val; omega
  · show win1_3.index t (1 : Fin 2) * 2048 + 1 * q.val = 2048 * t.val + q.val; omega

/-- An index of the result array is in point `t`'s block iff each coordinate is in the block's range on its axis. -/
theorem mem_blk (t : Fin cfg1.N) (i : S1024x40960.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v20).slice (win1_3.rect t)).set ↔ _
  rw [View.set_slice_whole, Rect.mem_set_unit]
  exact Iff.rfl

/-- The twenty column bands tile the array: column `n` lies in band `n / 2048`. -/
theorem bands_cover (i : S1024x40960.Idx) :
    ∃ t : Fin cfg1.N, (cfg1.win 3).flush t = true ∧ i ∈ ((cfg1.win 3).blk t).view.set := by
  have hi0 : (i 0).val < 1024 := (i 0).isLt
  have hi1 : (i 1).val < 40960 := (i 1).isLt
  have hN : cfg1.N = 20 := (by decide : grid1.N = 20)
  have ht : (i 1).val / 2048 < cfg1.N := by rw [hN]; omega
  obtain ⟨-, -, -, -, -, -, e0, e1⟩ := band_facts ⟨(i 1).val / 2048, ht⟩
  have e1' : win1_3.index ⟨(i 1).val / 2048, ht⟩ (1 : Fin 2) = (i 1).val / 2048 := e1
  refine ⟨⟨(i 1).val / 2048, ht⟩, flush1_3 _, ?_⟩
  rw [mem_blk]
  intro a
  match a with
  | ⟨0, _⟩ =>
    show win1_3.index ⟨(i 1).val / 2048, ht⟩ (0 : Fin 2) * 1024 ≤ (i 0).val ∧ (i 0).val < win1_3.index ⟨(i 1).val / 2048, ht⟩ (0 : Fin 2) * 1024 + 1024
    omega
  | ⟨1, _⟩ =>
    show win1_3.index ⟨(i 1).val / 2048, ht⟩ (1 : Fin 2) * 2048 ≤ (i 1).val ∧ (i 1).val < win1_3.index ⟨(i 1).val / 2048, ht⟩ (1 : Fin 2) * 2048 + 2048
    omega

/-- After the region's last grid point its result array holds the scores of the arrays the region was entered with. -/
theorem final_array (c : Dev nD) :
    ((dat1 (F := Ideal) V c).arrAt 3 cfg1.N : S1024x40960.Idx → EReal)
      = logitArr (V c main_v16) (V c main_v17) (V c main_v19) := by
  exact (dat1 (F := Ideal) V c).arrAt_eq_of_cover 3 (logitArr (V c main_v16) (V c main_v17) (V c main_v19))
    (fun t _ => flushed_eq V c t) bands_cover

end Cert.Bridge

end
-- ==== Proof.Fold.lean ====
/-
  The kernel program's result buffer, read back through @main. The last host operation cuts the first 40943 columns out
  of the second kernel's [1024, 40960] result array; that array is the scores of the hidden rows against the entity table
  padded with 17 zero rows and the bias padded with 17 zeros; the hidden rows are the first kernel's result array, whose
  entity and relation rows are the two gathered tables. Reading the cut at a column below 40943 never meets the padding.
-/
import proofs.«123047_j47605417509202_1_alg».proof.Proof.Gen.KernelIdeal.Frame
import proofs.«123047_j47605417509202_1_alg».proof.Proof.Spec
import proofs.«123047_j47605417509202_1_alg».proof.Proof.HyperArray
import proofs.«123047_j47605417509202_1_alg».proof.Proof.FinalArray
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run

set_option maxRecDepth 16384

noncomputable section

namespace Cert.Bridge

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The result buffer is the last host operation's cut of the second kernel's result array. -/
theorem result_is_cut (c : Dev nD) :
    W9 m ρ c (Proc.devRef .tc main_v21)
      = extractStridedSlice S1024x40943 ![0, 0] (W8 m ρ c (Proc.devRef .tc main_v20)) slices_S1024x40960_S1024x40943_0_0 := by
  dsimp only [W9, hostOps2]
  after_results

/-- The second kernel's result array at the region's exit is what its write-backs leave. -/
theorem scores_at_exit (c : Dev nD) :
    W8 m ρ c (Proc.devRef .tc main_v20) = (dat1 (V7 m ρ) c).arrAt 3 cfg1.N := W8_arr m ρ c 3

/-- The hidden array the second kernel reads is the first kernel's result array at that region's exit: no host operation
    in between writes it. -/
theorem hidden_at_entry (c : Dev nD) :
    V7 m ρ c main_v16 = (dat0 (V1 m ρ) c).arrAt 6 cfg0.N := by
  refine Eq.trans ?_ (W2_arr m ρ c 6)
  dsimp only [V7, W7, W6, W5, W4, W3, hostOps1_4, hostOps1_3, hostOps1_2, hostOps1_1, hostOps1]
  after_results

/-- No host operation before the first kernel and neither kernel writes an argument the first kernel does not stage: the
    entity table is as launched when it is padded. -/
theorem arg7_unwritten (c : Dev nD) :
    W2 m ρ c (Proc.devRef .tc main_arg7) = m ((c : Thread nD τ).loc main_arg7) := by
  refine (W2_of_ne m ρ c main_arg7 (by decide)).trans ?_
  dsimp only [W1, hostOps0]
  after_results

/-- The same for the bias. -/
theorem arg6_unwritten (c : Dev nD) :
    W2 m ρ c (Proc.devRef .tc main_arg6) = m ((c : Thread nD τ).loc main_arg6) := by
  refine (W2_of_ne m ρ c main_arg6 (by decide)).trans ?_
  dsimp only [W1, hostOps0]
  after_results

/-- Row `n < 40943` of the padded entity table is row `n` of the entity table. -/
theorem table_apply (c : Dev nD) (n : Fin 40943) (d : Fin 200) :
    (V7 m ρ c main_v17 : S40960x200.Idx → EReal) (ix2 ⟨n.val, by have := n.isLt; omega⟩ d)
      = (m ((c : Thread nD τ).loc main_arg7) : S40943x200.Idx → EReal) (ix2 n d) := by
  dsimp only [V7, W7, W6, W5, W4, W3, hostOps1_4, hostOps1_3, hostOps1_2, hostOps1_1, hostOps1]
  after_results
  rw [arg7_unwritten]
  simp only [TRef.toBuf, TRef.ofBuf, cast_eq]
  refine pad_apply_of_inside _ _ _ _ _ _ _ _ (ix2 n d) fun a => ?_
  match a with
  | ⟨0, _⟩ => show n.val = 0 + n.val * (0 + 1); omega
  | ⟨1, _⟩ => show d.val = 0 + d.val * (0 + 1); omega

/-- Entry `n < 40943` of the padded bias row is entry `n` of the bias. -/
theorem bias_apply (c : Dev nD) (n : Fin 40943) :
    (V7 m ρ c main_v19 : S1x40960.Idx → EReal) (ix2 0 ⟨n.val, by have := n.isLt; omega⟩)
      = (m ((c : Thread nD τ).loc main_arg6) : S40943.Idx → EReal) (ix1 n) := by
  dsimp only [V7, W7, W6, W5, W4, W3, hostOps1_4, hostOps1_3, hostOps1_2, hostOps1_1, hostOps1]
  after_results
  rw [arg6_unwritten]
  simp only [TRef.toBuf, TRef.ofBuf, cast_eq]
  refine (shapeCast_a_1a_apply _ _ 0 _).trans ?_
  refine pad_apply_of_inside _ _ _ _ _ _ _ _ (ix1 n) fun a => ?_
  match a with
  | ⟨0, _⟩ => show n.val = 0 + n.val * (0 + 1); omega

/-- The entity rows the first kernel reads: the entity table gathered at the entity indices, a negative index wrapped
    once by the table's length, as the host prelude computes them. -/
def gatheredE (x0 : (⟨S1024, .i32⟩ : BufTy).Contents (Elt Ideal)) (x7 : (⟨S40943x200, .f32⟩ : BufTy).Contents (Elt Ideal)) :
    (⟨S1024x200, .f32⟩ : BufTy).Contents (Elt Ideal) :=
  Host.gather gather_S40943x200_S1024x1_S1024x200_1_0_n_n_0_1_1200 x7
    (broadcastInDim S1024x1 ![0] bcast_S1024_S1024x1_0
      (select (cmpi .slt x0 (broadcastInDim S1024 ![] bcast_S_S1024 (constantI S_ 32 0#32)))
        (addi x0 (broadcastInDim S1024 ![] bcast_S_S1024 (constantI S_ 32 40943#32))) x0))

/-- The relation rows, likewise, from the relation table of 18 rows. -/
def gatheredR (x1 : (⟨S1024, .i32⟩ : BufTy).Contents (Elt Ideal)) (x8 : (⟨S18x200, .f32⟩ : BufTy).Contents (Elt Ideal)) :
    (⟨S1024x200, .f32⟩ : BufTy).Contents (Elt Ideal) :=
  Host.gather gather_S18x200_S1024x1_S1024x200_1_0_n_n_0_1_1200 x8
    (broadcastInDim S1024x1 ![0] bcast_S1024_S1024x1_0
      (select (cmpi .slt x1 (broadcastInDim S1024 ![] bcast_S_S1024 (constantI S_ 32 0#32)))
        (addi x1 (broadcastInDim S1024 ![] bcast_S_S1024 (constantI S_ 32 18#32))) x1))

theorem entity_rows (c : Dev nD) :
    V1 m ρ c main_v6 = gatheredE (m ((c : Thread nD τ).loc main_arg0)) (m ((c : Thread nD τ).loc main_arg7)) := by
  dsimp only [V1, W1, hostOps0]
  after_results
  rfl

theorem relation_rows (c : Dev nD) :
    V1 m ρ c main_v13 = gatheredR (m ((c : Thread nD τ).loc main_arg1)) (m ((c : Thread nD τ).loc main_arg8)) := by
  dsimp only [V1, W1, hostOps0]
  after_results
  rfl

theorem w1_at_entry (c : Dev nD) : V1 m ρ c main_arg2 = m ((c : Thread nD τ).loc main_arg2) := by
  dsimp only [V1, W1, hostOps0]
  after_results

theorem w2_at_entry (c : Dev nD) : V1 m ρ c main_arg4 = m ((c : Thread nD τ).loc main_arg4) := by
  dsimp only [V1, W1, hostOps0]
  after_results

/-- The first bias as the one-row matrix the kernel takes. -/
theorem b1_apply (c : Dev nD) (q : Fin 288) :
    (V1 m ρ c main_v14 : S1x288.Idx → EReal) (ix2 0 q) = (m ((c : Thread nD τ).loc main_arg3) : S288.Idx → EReal) (ix1 q) := by
  dsimp only [V1, W1, hostOps0]
  after_results
  exact shapeCast_a_1a_apply _ _ 0 q

theorem b2_apply (c : Dev nD) (d : Fin 200) :
    (V1 m ρ c main_v15 : S1x200.Idx → EReal) (ix2 0 d) = (m ((c : Thread nD τ).loc main_arg5) : S200.Idx → EReal) (ix1 d) := by
  dsimp only [V1, W1, hostOps0]
  after_results
  exact shapeCast_a_1a_apply _ _ 0 d

/-- The hidden row depends on its six inputs entry by entry. -/
theorem hid_congr {e e' r r' : Fin 200 → EReal} {W1 W1' : Fin 200 → Fin 288 → EReal} {b1 b1' : Fin 288 → EReal}
    {W2 W2' : Fin 6144 → Fin 200 → EReal} {b2 b2' : Fin 200 → EReal}
    (he : ∀ d, e d = e' d) (hr : ∀ d, r d = r' d) (hW1 : ∀ d q, W1 d q = W1' d q) (hb1 : ∀ q, b1 q = b1' q)
    (hW2 : ∀ p d, W2 p d = W2' p d) (hb2 : ∀ d, b2 d = b2' d) (d : Fin 200) :
    Spec.hid e r W1 b1 W2 b2 d = Spec.hid e' r' W1' b1' W2' b2' d := by
  obtain rfl : e = e' := funext he
  obtain rfl : r = r' := funext hr
  obtain rfl : W1 = W1' := funext fun d => funext (hW1 d)
  obtain rfl : b1 = b1' := funext hb1
  obtain rfl : W2 = W2' := funext fun p => funext (hW2 p)
  obtain rfl : b2 = b2' := funext hb2
  rfl

/-- A score depends on the hidden row and the entity row entry by entry. -/
theorem logit_congr {h h' En En' : Fin 200 → EReal} {bn bn' : EReal}
    (hh : ∀ d, h d = h' d) (hE : ∀ d, En d = En' d) (hb : bn = bn') : Spec.logit h En bn = Spec.logit h' En' bn' := by
  obtain rfl : h = h' := funext hh
  obtain rfl : En = En' := funext hE
  rw [hb]

/-- Row `b` of the hidden array the second kernel reads is the hidden row of batch row `b`. -/
theorem hidden_apply (c : Dev nD) (b : Fin 1024) (d : Fin 200) :
    (V7 m ρ c main_v16 : S1024x200.Idx → EReal) (ix2 b d)
      = Spec.hid (fun d' => (gatheredE (m ((c : Thread nD τ).loc main_arg0)) (m ((c : Thread nD τ).loc main_arg7)) : S1024x200.Idx → EReal) (ix2 b d'))
          (fun d' => (gatheredR (m ((c : Thread nD τ).loc main_arg1)) (m ((c : Thread nD τ).loc main_arg8)) : S1024x200.Idx → EReal) (ix2 b d'))
          (fun d' q => (m ((c : Thread nD τ).loc main_arg2) : S200x288.Idx → EReal) (ix2 d' q))
          (fun q => (m ((c : Thread nD τ).loc main_arg3) : S288.Idx → EReal) (ix1 q))
          (fun p d' => (m ((c : Thread nD τ).loc main_arg4) : S6144x200.Idx → EReal) (ix2 p d'))
          (fun d' => (m ((c : Thread nD τ).loc main_arg5) : S200.Idx → EReal) (ix1 d')) d := by
  rw [hidden_at_entry, hyper_array (V1 m ρ) c]
  unfold hidArr
  exact hid_congr (fun d' => congrFun (entity_rows m ρ c) _) (fun d' => congrFun (relation_rows m ρ c) _)
    (fun d' q => congrFun (w1_at_entry m ρ c) _) (b1_apply m ρ c) (fun p d' => congrFun (w2_at_entry m ρ c) _)
    (b2_apply m ρ c) d

/-- THE RESULT AT AN ENTRY: the score of the hidden row of batch row `b` against entity row `n`, plus that entity's bias,
    all of it in terms of the launch contents of the argument arrays. -/
theorem result_apply (c : Dev nD) (b : Fin 1024) (n : Fin 40943) :
    (W9 m ρ c (Proc.devRef .tc main_v21) : S1024x40943.Idx → EReal) (ix2 b n)
      = Spec.logit
          (Spec.hid (fun d' => (gatheredE (m ((c : Thread nD τ).loc main_arg0)) (m ((c : Thread nD τ).loc main_arg7)) : S1024x200.Idx → EReal) (ix2 b d'))
            (fun d' => (gatheredR (m ((c : Thread nD τ).loc main_arg1)) (m ((c : Thread nD τ).loc main_arg8)) : S1024x200.Idx → EReal) (ix2 b d'))
            (fun d' q => (m ((c : Thread nD τ).loc main_arg2) : S200x288.Idx → EReal) (ix2 d' q))
            (fun q => (m ((c : Thread nD τ).loc main_arg3) : S288.Idx → EReal) (ix1 q))
            (fun p d' => (m ((c : Thread nD τ).loc main_arg4) : S6144x200.Idx → EReal) (ix2 p d'))
            (fun d' => (m ((c : Thread nD τ).loc main_arg5) : S200.Idx → EReal) (ix1 d')))
          (fun d => (m ((c : Thread nD τ).loc main_arg7) : S40943x200.Idx → EReal) (ix2 n d))
          ((m ((c : Thread nD τ).loc main_arg6) : S40943.Idx → EReal) (ix1 n)) := by
  rw [result_is_cut]
  refine (extractStridedSlice_apply _ _ _ (ix2 b n) (ix2 b ⟨n.val, by have := n.isLt; omega⟩) (fun a => ?_)).trans ?_
  · match a with
    | ⟨0, _⟩ => show b.val = 0 + b.val; omega
    | ⟨1, _⟩ => show n.val = 0 + n.val; omega
  rw [scores_at_exit, final_array (V7 m ρ) c]
  unfold logitArr
  exact logit_congr (hidden_apply m ρ c b) (table_apply m ρ c n) (bias_apply m ρ c n)

end Cert.Bridge

end
-- ==== Proof.RefValue.lean ====
/-
  The reference's result read at an entry: the score `Spec.logit` of the hidden row `Spec.hid` of batch row `b`
  (its entity and relation rows the two gathered tables) against entity row `n`.
-/
import proofs.«123047_j47605417509202_1_alg».proof.Proof.Gen.ReferenceIdeal.Read
import proofs.«123047_j47605417509202_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.Bridge.Ref

open Idealize.ShloMosaic Idealize.ShloMosaic.TcCoe Idealize.ShloMosaic.ValueIdx
open Cert.ReferenceIdeal Cert.ReferenceIdeal.Read

/-- The start-index word at position (w, j) is the word of w + j. -/
theorem idx_word (w : Fin 192) (j : Fin 9) :
    val_main_v31 (F := Ideal) (ix3 w j (0 : Fin 1)) = BitVec.ofNat 32 (w.val + j.val) := by
  rw [val_main_v31_apply, val_main_v30_apply, val_main_v27_apply, val_main_v29_apply, val_main_v25_apply,
    val_main_v23_apply, val_main_v24_apply, val_main_v20_apply, val_main_v22_apply, val_main_v19_apply,
    val_main_v21_apply, val_main_v26_apply, val_main_c_3_apply, val_main_v28_apply, val_main_c_4_apply]
  have hw := w.isLt
  have hj := j.isLt
  have hsum : IntOp.addi (BitVec.ofNat 32 w.val) (BitVec.ofNat 32 j.val) = BitVec.ofNat 32 (w.val + j.val) := by
    unfold IntOp.addi
    exact (BitVec.ofNat_add _ _).symm
  show Scalar.select (IntOp.cmpi .slt (IntOp.addi (BitVec.ofNat 32 w.val) (BitVec.ofNat 32 j.val)) 0#32)
      (IntOp.addi (IntOp.addi (BitVec.ofNat 32 w.val) (BitVec.ofNat 32 j.val)) 200#32)
      (IntOp.addi (BitVec.ofNat 32 w.val) (BitVec.ofNat 32 j.val)) = _
  rw [hsum]
  have hlt : (BitVec.ofNat 32 (w.val + j.val)).toNat < 2 ^ 31 := by
    rw [BitVec.toNat_ofNat]; omega
  have hc : IntOp.cmpi .slt (BitVec.ofNat 32 (w.val + j.val)) 0#32 = 0#1 :=
    eq_zero_of_ne_one fun h => by
      have := (StableHlo.Predicate.slt_iff_toNat hlt (by decide)).mp h
      simp at this
  rw [hc, select_zero]

/-- Axis 0 of the operand index of the patch gather: the offset axis, read at the result's first coordinate. -/
theorem patch_op_0 {wd : Nat} (idx : IVec S192x9x1 wd) (i : S1024x192x9.Idx) :
    (GatherDims.operandIdx gather_S1024x200_S192x9x1_S1024x192x9_0_1_n_n_1_2_10241 i idx 0).val = (i 0).val := by
  show GatherDims.start gather_S1024x200_S192x9x1_S1024x192x9_0_1_n_n_1_2_10241 i idx 0
    + GatherDims.batchCoord gather_S1024x200_S192x9x1_S1024x192x9_0_1_n_n_1_2_10241 i 0
    + GatherDims.offCoord gather_S1024x200_S192x9x1_S1024x192x9_0_1_n_n_1_2_10241 i 0 = _
  rw [GatherDims.batchCoord_eq_zero _ _ _ List.not_mem_nil]
  unfold GatherDims.start
  rw [dif_neg (show ¬(0 : Fin S1024x200.rank) ∈ gather_S1024x200_S192x9x1_S1024x192x9_0_1_n_n_1_2_10241.startIndexMap by decide)]
  unfold GatherDims.offCoord
  rw [dif_pos (show (0 : Fin S1024x200.rank) ∈ gather_S1024x200_S192x9x1_S1024x192x9_0_1_n_n_1_2_10241.sKept by decide),
    Nat.add_zero, Nat.zero_add]
  rfl

/-- Axis 1 of the operand index of the patch gather: the collapsed axis, the start index read signed and clamped. -/
theorem patch_op_1 {wd : Nat} (idx : IVec S192x9x1 wd) (b : Fin 1024) (w : Fin 192) (j : Fin 9) :
    (GatherDims.operandIdx gather_S1024x200_S192x9x1_S1024x192x9_0_1_n_n_1_2_10241 (ix3 b w j) idx 1).val
      = min (idx (ix3 w j (0 : Fin 1))).toInt.toNat (200 - 1) := by
  show GatherDims.start gather_S1024x200_S192x9x1_S1024x192x9_0_1_n_n_1_2_10241 (ix3 b w j) idx 1
    + GatherDims.batchCoord gather_S1024x200_S192x9x1_S1024x192x9_0_1_n_n_1_2_10241 (ix3 b w j) 1
    + GatherDims.offCoord gather_S1024x200_S192x9x1_S1024x192x9_0_1_n_n_1_2_10241 (ix3 b w j) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin S1024x200.rank) ∈ gather_S1024x200_S192x9x1_S1024x192x9_0_1_n_n_1_2_10241.startIndexMap from List.mem_singleton.mpr rfl)]
  have hsi : gather_S1024x200_S192x9x1_S1024x192x9_0_1_n_n_1_2_10241.siIdx (ix3 b w j)
      ⟨List.idxOf (1 : Fin S1024x200.rank) gather_S1024x200_S192x9x1_S1024x192x9_0_1_n_n_1_2_10241.startIndexMap,
        List.idxOf_lt_length_iff.2 (List.mem_singleton.mpr rfl)⟩ = ix3 w j (0 : Fin 1) := by
    funext c; refine Fin.ext ?_
    match c with
    | ⟨0, _⟩ => rfl
    | ⟨1, _⟩ => rfl
    | ⟨2, _⟩ => rfl
  rw [hsi]
  rfl

/-- The patch gather read at (b, w, j): the entity row of batch row b at position w + j. -/
theorem patch_apply (x0 : (⟨S1024, .i32⟩ : BufTy).Contents (Elt Ideal)) (x7 : (⟨S40943x200, .f32⟩ : BufTy).Contents (Elt Ideal))
    (b : Fin 1024) (w : Fin 192) (j : Fin 9) :
    (val_main_v32 (F := Ideal) x0 x7 : S1024x192x9.Idx → EReal) (ix3 b w j)
      = (val_main_v6 (F := Ideal) x0 x7 : S1024x200.Idx → EReal) (ix2 b (Spec.shift w j)) := by
  unfold val_main_v32
  generalize val_main_v6 (F := Ideal) x0 x7 = y
  unfold Host.gather
  congr 1
  funext a
  refine Fin.ext ?_
  have hw := w.isLt
  have hj := j.isLt
  match a with
  | ⟨0, _⟩ => exact patch_op_0 _ _
  | ⟨1, _⟩ =>
    refine (patch_op_1 _ b w j).trans ?_
    rw [idx_word, StableHlo.Predicate.toInt_ofNat_small _ (by omega)]
    show min (w.val + j.val) (200 - 1) = w.val + j.val
    omega

/-- The first linear layer read at (b, q): the taps `Spec.filt` of batch row b's relation row. -/
theorem filt_apply (x1 : (⟨S1024, .i32⟩ : BufTy).Contents (Elt Ideal)) (x2 : (⟨S200x288, .f32⟩ : BufTy).Contents (Elt Ideal))
    (x3 : (⟨S288, .f32⟩ : BufTy).Contents (Elt Ideal)) (x8 : (⟨S18x200, .f32⟩ : BufTy).Contents (Elt Ideal))
    (b : Fin 1024) (q : Fin 288) :
    (val_main_v17 (F := Ideal) x1 x2 x3 x8 : S1024x288.Idx → EReal) (ix2 b q)
      = Spec.filt (fun d => (val_main_v13 (F := Ideal) x1 x8 : S1024x200.Idx → EReal) (ix2 b d))
          (fun d q => (x2 : S200x288.Idx → EReal) (ix2 d q)) (fun q => (x3 : S288.Idx → EReal) (ix1 q)) q := by
  have e1 : ∀ k : Fin 200, lidx_main_v14 (ix2 b q) k = ix2 b k := fun k =>
    funext fun a => Fin.ext (by match a with | ⟨0, _⟩ => rfl | ⟨1, _⟩ => rfl)
  have e2 : ∀ k : Fin 200, ridx_main_v14 (ix2 b q) k = ix2 k q := fun k =>
    funext fun a => Fin.ext (by match a with | ⟨0, _⟩ => rfl | ⟨1, _⟩ => rfl)
  have e3 : idx_main_v15 (idx_main_v16 (ix2 b q)) = ix1 q :=
    funext fun a => Fin.ext (by match a with | ⟨0, _⟩ => rfl)
  rw [val_main_v17_apply, val_main_v14_apply, val_main_v16_apply, val_main_v15_apply, e3]
  simp only [e1, e2, Ideal.addf_def]
  rfl

/-- The taps reshaped to (b, j, o): tap j of channel o sits at position j · 32 + o. -/
theorem taps_apply (x1 : (⟨S1024, .i32⟩ : BufTy).Contents (Elt Ideal)) (x2 : (⟨S200x288, .f32⟩ : BufTy).Contents (Elt Ideal))
    (x3 : (⟨S288, .f32⟩ : BufTy).Contents (Elt Ideal)) (x8 : (⟨S18x200, .f32⟩ : BufTy).Contents (Elt Ideal))
    (b : Fin 1024) (j : Fin 9) (o : Fin 32) :
    (val_main_v18 (F := Ideal) x1 x2 x3 x8 : S1024x9x32.Idx → EReal) (ix3 b j o)
      = Spec.filt (fun d => (val_main_v13 (F := Ideal) x1 x8 : S1024x200.Idx → EReal) (ix2 b d))
          (fun d q => (x2 : S200x288.Idx → EReal) (ix2 d q)) (fun q => (x3 : S288.Idx → EReal) (ix1 q)) (Spec.tap j o) := by
  have hb := b.isLt
  have hj := j.isLt
  have ho := o.isLt
  have e : idx_main_v18 (ix3 b j o) = ix2 b (Spec.tap j o) :=
    funext fun a => Fin.ext (by
      match a with
      | ⟨0, _⟩ => show ((b.val * 9 + j.val) * 32 + o.val) / 288 = b.val; omega
      | ⟨1, _⟩ => show ((b.val * 9 + j.val) * 32 + o.val) % 288 = j.val * 32 + o.val; omega)
  rw [val_main_v18_apply, e, filt_apply]

/-- The batched contraction read at (b, o, w): the valid convolution `Spec.feat` of batch row b's entity row with its taps. -/
theorem feat_apply (x0 x1 : (⟨S1024, .i32⟩ : BufTy).Contents (Elt Ideal)) (x2 : (⟨S200x288, .f32⟩ : BufTy).Contents (Elt Ideal))
    (x3 : (⟨S288, .f32⟩ : BufTy).Contents (Elt Ideal)) (x7 : (⟨S40943x200, .f32⟩ : BufTy).Contents (Elt Ideal))
    (x8 : (⟨S18x200, .f32⟩ : BufTy).Contents (Elt Ideal))
    (b : Fin 1024) (o : Fin 32) (w : Fin 192) :
    (val_main_v33 (F := Ideal) x0 x1 x2 x3 x7 x8 : S1024x32x192.Idx → EReal) (ix3 b o w)
      = Spec.feat (fun d => (val_main_v6 (F := Ideal) x0 x7 : S1024x200.Idx → EReal) (ix2 b d))
          (Spec.filt (fun d => (val_main_v13 (F := Ideal) x1 x8 : S1024x200.Idx → EReal) (ix2 b d))
            (fun d q => (x2 : S200x288.Idx → EReal) (ix2 d q)) (fun q => (x3 : S288.Idx → EReal) (ix1 q))) o w := by
  have e1 : ∀ k : Fin 9, lidx_main_v33 (ix3 b o w) k = ix3 b k o := fun k =>
    funext fun a => Fin.ext (by match a with | ⟨0, _⟩ => rfl | ⟨1, _⟩ => rfl | ⟨2, _⟩ => rfl)
  have e2 : ∀ k : Fin 9, ridx_main_v33 (ix3 b o w) k = ix3 b w k := fun k =>
    funext fun a => Fin.ext (by match a with | ⟨0, _⟩ => rfl | ⟨1, _⟩ => rfl | ⟨2, _⟩ => rfl)
  rw [val_main_v33_apply]
  unfold Spec.feat
  refine Finset.sum_congr rfl fun k _ => ?_
  rw [e1, e2, taps_apply, patch_apply]

/-- The features flattened channel-major: position p is channel p / 192 at offset p % 192. -/
theorem flat_apply (x0 x1 : (⟨S1024, .i32⟩ : BufTy).Contents (Elt Ideal)) (x2 : (⟨S200x288, .f32⟩ : BufTy).Contents (Elt Ideal))
    (x3 : (⟨S288, .f32⟩ : BufTy).Contents (Elt Ideal)) (x7 : (⟨S40943x200, .f32⟩ : BufTy).Contents (Elt Ideal))
    (x8 : (⟨S18x200, .f32⟩ : BufTy).Contents (Elt Ideal))
    (b : Fin 1024) (p : Fin 6144) :
    (val_main_v34 (F := Ideal) x0 x1 x2 x3 x7 x8 : S1024x6144.Idx → EReal) (ix2 b p)
      = Spec.feat (fun d => (val_main_v6 (F := Ideal) x0 x7 : S1024x200.Idx → EReal) (ix2 b d))
          (Spec.filt (fun d => (val_main_v13 (F := Ideal) x1 x8 : S1024x200.Idx → EReal) (ix2 b d))
            (fun d q => (x2 : S200x288.Idx → EReal) (ix2 d q)) (fun q => (x3 : S288.Idx → EReal) (ix1 q))) (Spec.chan p) (Spec.offs p) := by
  have hb := b.isLt
  have hp := p.isLt
  have e : idx_main_v34 (ix2 b p) = ix3 b (Spec.chan p) (Spec.offs p) :=
    funext fun a => Fin.ext (by
      match a with
      | ⟨0, _⟩ => show (b.val * 6144 + p.val) / 6144 = b.val; omega
      | ⟨1, _⟩ => show (b.val * 6144 + p.val) / 192 % 32 = p.val / 192; omega
      | ⟨2, _⟩ => show (b.val * 6144 + p.val) % 192 = p.val % 192; omega)
  rw [val_main_v34_apply, e, feat_apply]

/-- The second linear layer, rectified, read at (b, d): the hidden row `Spec.hid` of batch row b. -/
theorem hid_apply (x0 x1 : (⟨S1024, .i32⟩ : BufTy).Contents (Elt Ideal)) (x2 : (⟨S200x288, .f32⟩ : BufTy).Contents (Elt Ideal))
    (x3 : (⟨S288, .f32⟩ : BufTy).Contents (Elt Ideal)) (x4 : (⟨S6144x200, .f32⟩ : BufTy).Contents (Elt Ideal))
    (x5 : (⟨S200, .f32⟩ : BufTy).Contents (Elt Ideal)) (x7 : (⟨S40943x200, .f32⟩ : BufTy).Contents (Elt Ideal))
    (x8 : (⟨S18x200, .f32⟩ : BufTy).Contents (Elt Ideal))
    (b : Fin 1024) (d : Fin 200) :
    (val_main_v39 (F := Ideal) x0 x1 x2 x3 x4 x5 x7 x8 : S1024x200.Idx → EReal) (ix2 b d)
      = Spec.hid (fun d => (val_main_v6 (F := Ideal) x0 x7 : S1024x200.Idx → EReal) (ix2 b d))
            (fun d => (val_main_v13 (F := Ideal) x1 x8 : S1024x200.Idx → EReal) (ix2 b d))
            (fun d q => (x2 : S200x288.Idx → EReal) (ix2 d q)) (fun q => (x3 : S288.Idx → EReal) (ix1 q))
            (fun p d => (x4 : S6144x200.Idx → EReal) (ix2 p d)) (fun d => (x5 : S200.Idx → EReal) (ix1 d)) d := by
  have e1 : ∀ k : Fin 6144, lidx_main_v35 (ix2 b d) k = ix2 b k := fun k =>
    funext fun a => Fin.ext (by match a with | ⟨0, _⟩ => rfl | ⟨1, _⟩ => rfl)
  have e2 : ∀ k : Fin 6144, ridx_main_v35 (ix2 b d) k = ix2 k d := fun k =>
    funext fun a => Fin.ext (by match a with | ⟨0, _⟩ => rfl | ⟨1, _⟩ => rfl)
  have e3 : idx_main_v36 (idx_main_v37 (ix2 b d)) = ix1 d :=
    funext fun a => Fin.ext (by match a with | ⟨0, _⟩ => rfl)
  rw [val_main_v39_apply, val_main_v38_apply, val_main_v35_apply, val_main_v37_apply, val_main_v36_apply, e3,
    val_main_call0_v0_apply, val_main_call0_cst_apply]
  simp only [Ideal.maximumf_def, Ideal.addf_def, Ideal.ofBits_def, Ideal.ofBits_zero_f32]
  unfold Spec.hid
  congr 2
  refine Finset.sum_congr rfl fun k _ => ?_
  rw [e1, e2, flat_apply]

/-- Entry `(b, n)` of the reference's result. -/
theorem ref_apply (x0 x1 : (⟨S1024, .i32⟩ : BufTy).Contents (Elt Ideal)) (x2 : (⟨S200x288, .f32⟩ : BufTy).Contents (Elt Ideal))
    (x3 : (⟨S288, .f32⟩ : BufTy).Contents (Elt Ideal)) (x4 : (⟨S6144x200, .f32⟩ : BufTy).Contents (Elt Ideal))
    (x5 : (⟨S200, .f32⟩ : BufTy).Contents (Elt Ideal)) (x6 : (⟨S40943, .f32⟩ : BufTy).Contents (Elt Ideal))
    (x7 : (⟨S40943x200, .f32⟩ : BufTy).Contents (Elt Ideal)) (x8 : (⟨S18x200, .f32⟩ : BufTy).Contents (Elt Ideal))
    (b : Fin 1024) (n : Fin 40943) :
    (val_main_v44 (F := Ideal) x0 x1 x2 x3 x4 x5 x6 x7 x8 : S1024x40943.Idx → EReal) (ix2 b n)
      = Spec.logit
          (Spec.hid (fun d => (val_main_v6 (F := Ideal) x0 x7 : S1024x200.Idx → EReal) (ix2 b d))
            (fun d => (val_main_v13 (F := Ideal) x1 x8 : S1024x200.Idx → EReal) (ix2 b d))
            (fun d q => (x2 : S200x288.Idx → EReal) (ix2 d q)) (fun q => (x3 : S288.Idx → EReal) (ix1 q))
            (fun p d => (x4 : S6144x200.Idx → EReal) (ix2 p d)) (fun d => (x5 : S200.Idx → EReal) (ix1 d)))
          (fun d => (x7 : S40943x200.Idx → EReal) (ix2 n d)) ((x6 : S40943.Idx → EReal) (ix1 n)) := by
  have e1 : ∀ k : Fin 200, lidx_main_v41 (ix2 b n) k = ix2 b k := fun k =>
    funext fun a => Fin.ext (by match a with | ⟨0, _⟩ => rfl | ⟨1, _⟩ => rfl)
  have e2 : ∀ k : Fin 200, idx_main_v40 (ridx_main_v41 (ix2 b n) k) = ix2 n k := fun k =>
    funext fun a => Fin.ext (by match a with | ⟨0, _⟩ => rfl | ⟨1, _⟩ => rfl)
  have e3 : idx_main_v42 (idx_main_v43 (ix2 b n)) = ix1 n :=
    funext fun a => Fin.ext (by match a with | ⟨0, _⟩ => rfl)
  rw [val_main_v44_apply, val_main_v41_apply, val_main_v43_apply, val_main_v42_apply, e3]
  simp only [Ideal.addf_def]
  unfold Spec.logit
  congr 1
  refine Finset.sum_congr rfl fun k _ => ?_
  rw [e1, val_main_v40_apply, e2, hid_apply]

end Cert.Bridge.Ref

end
-- ==== Proof.lean ====
/-
  The certificate of the hypernetwork convolution scorer against its plain reference, over the extended reals.

  Both programs gather 1024 entity rows and 1024 relation rows (length 200) by index, send each relation row through a
  linear layer to 9 · 32 filter taps, convolve the entity row with its own taps (32 channels, 192 valid positions), send
  the 6144 flattened features through a second linear layer and a rectifier to a hidden row of length 200, and score
  the hidden row against every one of the 40943 entity rows, adding a bias per entity (`Spec.hid`, `Spec.logit`).

  The kernel program does this in two kernel regions. The first computes the hidden rows 256 batch rows at a time; the
  second scores them against the entity table 2048 entities at a time, over a table and a bias padded with zeros to
  40960 entries, and the last host operation cuts the 17 padding columns off again. Its result buffer, read back through
  the host stretches and the two regions (`Bridge.result_apply`), and the reference's result, read one operation at a
  time (`Bridge.Ref.ref_apply`), are the same expression of the launch contents, entry by entry: every sum has the same
  terms in the same order of factors, the convolution's nine products added onto a zero on the kernel's side and summed
  on the reference's, and no entry below column 40943 meets the padding. The two gathers are the same terms on both
  sides and are never opened. No law that needs finite values is used, so the precondition is never opened either.

  The three frames are the generated ones (the reference's is its generated run with the result dropped), and
  the idealization rewrote no operation, so `preserves` has nothing to state.
-/
import proofs.«123047_j47605417509202_1_alg».proof.Defs
import proofs.«123047_j47605417509202_1_alg».proof.Proof.Gen.Kernel
import proofs.«123047_j47605417509202_1_alg».proof.Proof.Gen.Kernel.Skeleton
import proofs.«123047_j47605417509202_1_alg».proof.Proof.Gen.Kernel.Launch
import proofs.«123047_j47605417509202_1_alg».proof.Proof.Gen.Kernel.Points
import proofs.«123047_j47605417509202_1_alg».proof.Proof.Gen.Kernel.Frame
import proofs.«123047_j47605417509202_1_alg».proof.Proof.Gen.KernelIdeal
import proofs.«123047_j47605417509202_1_alg».proof.Proof.Gen.KernelIdeal.Skeleton
import proofs.«123047_j47605417509202_1_alg».proof.Proof.Gen.KernelIdeal.Launch
import proofs.«123047_j47605417509202_1_alg».proof.Proof.Gen.KernelIdeal.Points
import proofs.«123047_j47605417509202_1_alg».proof.Proof.Gen.KernelIdeal.Frame
import proofs.«123047_j47605417509202_1_alg».proof.Proof.Gen.ReferenceIdeal
import proofs.«123047_j47605417509202_1_alg».proof.Proof.Gen.ReferenceIdeal.Run
import proofs.«123047_j47605417509202_1_alg».proof.Proof.Gen.ReferenceIdeal.Read
import proofs.«123047_j47605417509202_1_alg».proof.Proof.Gen.Pre_finite_inputs
import proofs.«123047_j47605417509202_1_alg».proof.Proof.KernelRun
import proofs.«123047_j47605417509202_1_alg».proof.Proof.Fold
import proofs.«123047_j47605417509202_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The gathered entity rows are one term in both programs: the same gather of the same wrapped indices. -/
theorem entity_rows_agree (x0 : (⟨Cert.KernelIdeal.S1024, .i32⟩ : BufTy).Contents (Elt Ideal))
    (x7 : (⟨Cert.KernelIdeal.S40943x200, .f32⟩ : BufTy).Contents (Elt Ideal)) :
    Cert.ReferenceIdeal.Read.val_main_v6 (F := Ideal) x0 x7 = Cert.Bridge.gatheredE x0 x7 := rfl

/-- So are the gathered relation rows. -/
theorem relation_rows_agree (x1 : (⟨Cert.KernelIdeal.S1024, .i32⟩ : BufTy).Contents (Elt Ideal))
    (x8 : (⟨Cert.KernelIdeal.S18x200, .f32⟩ : BufTy).Contents (Elt Ideal)) :
    Cert.ReferenceIdeal.Read.val_main_v13 (F := Ideal) x1 x8 = Cert.Bridge.gatheredR x1 x8 := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end, with the same scores entry by entry. -/
theorem algebraic : Cert.algebraic_KernelIdeal_ReferenceIdeal := by
  intro m ρ m' ρ' _ hagree
  refine ⟨fun c => Cert.KernelIdeal.Gen.W9 m ρ c (Proc.devRef .tc Cert.KernelIdeal.main_v21),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v44_eq, h0, h1, h2, h3, h4, h5, h6, h7, h8]
  funext i
  obtain ⟨b, n, rfl⟩ : ∃ (b : Fin 1024) (n : Fin 40943), i = ix2 b n := ⟨i 0, i 1, eq_ix2 i⟩
  rw [Cert.Bridge.Ref.ref_apply, entity_rows_agree, relation_rows_agree]
  exact (Cert.Bridge.result_apply m ρ c b n).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
